-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x9x512x512 : Shape := ⟨5, ![4, 1, 9, 512, 512]⟩
abbrev S_ : Shape := ⟨0, ![]⟩

class Facts : Prop where
  bcast_S_S4x1x9x512x512 : S_.BroadcastsInDim S4x1x9x512x512 (![] : Fin 0 → Fin S4x1x9x512x512.rank)
  reducesTo_S4x1x9x512x512_S_d0_1_2_3_4 : S4x1x9x512x512.ReducesTo [0, 1, 2, 3, 4] S_
  h_S_ : 0 < S_.numel

variable [Facts]

def fn {F : FTy → Type} [FloatOps F] (main_arg0 : FVec F S4x1x9x512x512 .f32) : IVec S_ 1 :=
  let main_v0 : FVec F S4x1x9x512x512 .f32 := Host.absf main_arg0
  let main_cst : FVec F S_ .f32 := constant S_ .f32 0x7F800000#32
  let main_v1 : FVec F S4x1x9x512x512 .f32 := broadcastInDim S4x1x9x512x512 ![] bcast_S_S4x1x9x512x512 main_cst
  let main_v2 : IVec S4x1x9x512x512 1 := cmpf .olt main_v0 main_v1
  let main_c : IVec S_ 1 := constantI S_ 1 1#1
  let main_v3 : IVec S_ 1 := (fun x v => Host.reduce IntOp.andi x v reducesTo_S4x1x9x512x512_S_d0_1_2_3_4 h_S_) main_v2 main_c
  main_v3
-- ==== Kernel.lean ====
abbrev S4x1x9x512x512 : Shape := ⟨5, ![4, 1, 9, 512, 512]⟩
abbrev S4x1x8x512x512 : Shape := ⟨5, ![4, 1, 8, 512, 512]⟩
abbrev S4x56x512x512 : Shape := ⟨4, ![4, 56, 512, 512]⟩
abbrev S1x1x9x512x512 : Shape := ⟨5, ![1, 1, 9, 512, 512]⟩
abbrev S1x1x8x32x512 : Shape := ⟨5, ![1, 1, 8, 32, 512]⟩
abbrev S1x56x32x512 : Shape := ⟨4, ![1, 56, 32, 512]⟩
abbrev S1x1x9x32x512 : Shape := ⟨5, ![1, 1, 9, 32, 512]⟩
abbrev S9x32x512 : Shape := ⟨3, ![9, 32, 512]⟩
abbrev S8x32x512 : Shape := ⟨3, ![8, 32, 512]⟩
abbrev S8x1x512 : Shape := ⟨3, ![8, 1, 512]⟩
abbrev S8x31x512 : Shape := ⟨3, ![8, 31, 512]⟩
abbrev S8x32x1 : Shape := ⟨3, ![8, 32, 1]⟩
abbrev S8x32x511 : Shape := ⟨3, ![8, 32, 511]⟩
abbrev S56x32x512 : Shape := ⟨3, ![56, 32, 512]⟩
abbrev S1x1x9x40x512 : Shape := ⟨5, ![1, 1, 9, 40, 512]⟩
abbrev S9x40x512 : Shape := ⟨3, ![9, 40, 512]⟩
abbrev S8x40x512 : Shape := ⟨3, ![8, 40, 512]⟩

abbrev nBuf : Space → Nat
  | .hbm => 3
  | .vmem => 6
  | .smem => 0
  | _ => 0

abbrev bufTy : (tb : Table) → Fin (tcTables nBuf tb) → BufTy
  | .hbm, ⟨0, _⟩ => ⟨S4x1x9x512x512, .f32⟩
  | .hbm, ⟨1, _⟩ => ⟨S4x1x8x512x512, .f32⟩
  | .hbm, ⟨2, _⟩ => ⟨S4x56x512x512, .f32⟩
  | .local _ .vmem, ⟨0, _⟩ => ⟨S1x1x9x512x512, .f32⟩
  | .local _ .vmem, ⟨1, _⟩ => ⟨S1x1x9x512x512, .f32⟩
  | .local _ .vmem, ⟨2, _⟩ => ⟨S1x1x8x32x512, .f32⟩
  | .local _ .vmem, ⟨3, _⟩ => ⟨S1x1x8x32x512, .f32⟩
  | .local _ .vmem, ⟨4, _⟩ => ⟨S1x56x32x512, .f32⟩
  | .local _ .vmem, ⟨5, _⟩ => ⟨S1x56x32x512, .f32⟩
  | _, _ => ⟨S4x1x9x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def k0_mult1 (i : grid0.Coords) : BitVec 32 :=
  let arg1 : BitVec 32 := BitVec.ofNat 32 (i 1).val
  let c32_i32 : BitVec 32 := 32#32
  let v6 : BitVec 32 := Scalar.muli arg1 c32_i32
  let c8_i32 : BitVec 32 := 8#32
  let v7 : BitVec 32 := Scalar.subi v6 c8_i32
  v7
def k0_off1 (i : grid0.Coords) : Fin 5 → Nat :=
  let c0 : Index := 0#32
  let c0_3 : Index := 0#32
  let c0_4 : Index := 0#32
  let arg1 : BitVec 32 := BitVec.ofNat 32 (i 1).val
  let c32_i32 : BitVec 32 := 32#32
  let v6 : BitVec 32 := Scalar.muli arg1 c32_i32
  let c8_i32 : BitVec 32 := 8#32
  let v7 : BitVec 32 := Scalar.subi v6 c8_i32
  let v8 : BitVec 32 := v7
  let v9 : Index := Scalar.indexCast v8
  let c0_5 : Index := 0#32
  ![0, 0, 0, v9.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1x9x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x8x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x56x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1x9x512x512_S1x1x9x32x512_0_0_0_0_0 : ∀ a, (![0, 0, 0, 0, 0] : Fin 5 → Nat) a + S1x1x9x32x512.size a ≤ S1x1x9x512x512.size a
  h_S1x1x9x32x512 : 0 < S1x1x9x32x512.numel
  shapeCasts_S1x1x9x32x512_S9x32x512 : S1x1x9x32x512.ShapeCasts S9x32x512
  slices_S9x32x512_o0_0_0_S8x32x512 : S9x32x512.Slices ![0, 0, 0] S8x32x512
  slices_S9x32x512_o1_0_0_S8x32x512 : S9x32x512.Slices ![1, 0, 0] S8x32x512
  slices_S8x32x512_o0_0_0_S8x1x512 : S8x32x512.Slices ![0, 0, 0] S8x1x512
  slices_S8x32x512_o0_0_0_S8x31x512 : S8x32x512.Slices ![0, 0, 0] S8x31x512
  concatenates_S8x1x512_S8x31x512_S8x32x512_d1 : Shape.Concatenates [S8x1x512, S8x31x512] S8x32x512 1
  slices_S8x32x512_o0_0_0_S8x32x1 : S8x32x512.Slices ![0, 0, 0] S8x32x1
  slices_S8x32x512_o0_0_0_S8x32x511 : S8x32x512.Slices ![0, 0, 0] S8x32x511
  concatenates_S8x32x1_S8x32x511_S8x32x512_d2 : Shape.Concatenates [S8x32x1, S8x32x511] S8x32x512 2
  inb_S1x1x8x32x512_S1x1x8x32x512_0_0_0_0_0 : ∀ a, (![0, 0, 0, 0, 0] : Fin 5 → Nat) a + S1x1x8x32x512.size a ≤ S1x1x8x32x512.size a
  h_S1x1x8x32x512 : 0 < S1x1x8x32x512.numel
  shapeCasts_S1x1x8x32x512_S8x32x512 : S1x1x8x32x512.ShapeCasts S8x32x512
  shapeCasts_S8x32x512_S1x1x8x32x512 : S8x32x512.ShapeCasts S1x1x8x32x512
  concatenates_S8x32x512_S8x32x512_S8x32x512_S8x32x512_S8x32x512_S8x32x512_S8x32x512_S56x32x512_d0 : Shape.Concatenates [S8x32x512, S8x32x512, S8x32x512, S8x32x512, S8x32x512, S8x32x512, S8x32x512] S56x32x512 0
  inb_S1x56x32x512_S1x56x32x512_0_0_0_0 : ∀ a, (![0, 0, 0, 0] : Fin 4 → Nat) a + S1x56x32x512.size a ≤ S1x56x32x512.size a
  h_S1x56x32x512 : 0 < S1x56x32x512.numel
  shapeCasts_S1x56x32x512_S56x32x512 : S1x56x32x512.ShapeCasts S56x32x512
  shapeCasts_S56x32x512_S1x56x32x512 : S56x32x512.ShapeCasts S1x56x32x512
  h_S1x1x9x40x512 : 0 < S1x1x9x40x512.numel
  shapeCasts_S1x1x9x40x512_S9x40x512 : S1x1x9x40x512.ShapeCasts S9x40x512
  slices_S9x40x512_o0_0_0_S8x40x512 : S9x40x512.Slices ![0, 0, 0] S8x40x512
  slices_S9x40x512_o1_0_0_S8x40x512 : S9x40x512.Slices ![1, 0, 0] S8x40x512
  slices_S8x40x512_o0_8_0_S8x32x512 : S8x40x512.Slices ![0, 8, 0] S8x32x512
  slices_S8x40x512_o0_7_0_S8x32x512 : S8x40x512.Slices ![0, 7, 0] S8x32x512
  hrank0 : 0 < grid0.rank
  k0_mult1_dvd : ∀ i : grid0.Coords, ∀ (k0_h2 : k0_cond2 i = 1#1), 8 ∣ (k0_mult1 i).toNat
  k0_off1_inb : ∀ i : grid0.Coords, ∀ (k0_h2 : k0_cond2 i = 1#1), ∀ a, (k0_off1 i) a + S1x1x9x40x512.size a ≤ S1x1x9x512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x9x512x512.size a ≤ S4x1x9x512x512.size a
  hwx0_0 : ∀ i : grid0.Coords, EltTy.bits .f32 = 32 ∨ (Rect.block (s := S4x1x9x512x512) S1x1x9x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8x32x512.size a ≤ S4x1x8x512x512.size a
  hwx0_1 : ∀ i : grid0.Coords, EltTy.bits .f32 = 32 ∨ (Rect.block (s := S4x1x8x512x512) S1x1x8x32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x56x32x512.size a ≤ S4x56x512x512.size a
  hwx0_2 : ∀ i : grid0.Coords, EltTy.bits .f32 = 32 ∨ (Rect.block (s := S4x56x512x512) S1x56x32x512.size (cc0_transform_2 i) (hinb0_2 i)).WholeWords (EltTy.packing .f32)

variable [Facts₀]

abbrev win0_0 : Pipeline.Window sig grid0 :=
  Pipeline.Window.ofSpec (Memref.whole main_arg0) S1x1x9x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x8x32x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x56x32x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond1 i == 1#1) && !(k0_cond2 i == 1#1) | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S4x1x9x512x512 : Shape := ⟨5, ![4, 1, 9, 512, 512]⟩
abbrev S4x1x8x512x512 : Shape := ⟨5, ![4, 1, 8, 512, 512]⟩
abbrev S_ : Shape := ⟨0, ![]⟩
abbrev S4x1x8x1x512 : Shape := ⟨5, ![4, 1, 8, 1, 512]⟩
abbrev S4x1x8x513x512 : Shape := ⟨5, ![4, 1, 8, 513, 512]⟩
abbrev S4x1x8x512x1 : Shape := ⟨5, ![4, 1, 8, 512, 1]⟩
abbrev S4x1x8x512x513 : Shape := ⟨5, ![4, 1, 8, 512, 513]⟩
abbrev S4x1x56x512x512 : Shape := ⟨5, ![4, 1, 56, 512, 512]⟩
abbrev S4x56x512x512 : Shape := ⟨4, ![4, 56, 512, 512]⟩

abbrev nBuf : Space → Nat
  | .hbm => 85
  | .vmem => 0
  | .smem => 0
  | _ => 0

abbrev bufTy : (tb : Table) → Fin (tcTables nBuf tb) → BufTy
  | .hbm, ⟨0, _⟩ => ⟨S4x1x9x512x512, .f32⟩
  | .hbm, ⟨1, _⟩ => ⟨S4x1x8x512x512, .f32⟩
  | .hbm, ⟨2, _⟩ => ⟨S4x1x8x512x512, .f32⟩
  | .hbm, ⟨3, _⟩ => ⟨S4x1x8x512x512, .f32⟩
  | .hbm, ⟨4, _⟩ => ⟨S_, .f32⟩
  | .hbm, ⟨5, _⟩ => ⟨S4x1x8x512x512, .f32⟩
  | .hbm, ⟨6, _⟩ => ⟨S4x1x8x512x512, .f32⟩
  | .hbm, ⟨7, _⟩ => ⟨S4x1x8x512x512, .f32⟩
  | .hbm, ⟨8, _⟩ => ⟨S_, .f32⟩
  | .hbm, ⟨9, _⟩ => ⟨S4x1x8x512x512, .f32⟩
  | .hbm, ⟨10, _⟩ => ⟨S4x1x8x512x512, .f32⟩
  | .hbm, ⟨11, _⟩ => ⟨S4x1x8x1x512, .f32⟩
  | .hbm, ⟨12, _⟩ => ⟨S4x1x8x513x512, .f32⟩
  | .hbm, ⟨13, _⟩ => ⟨S4x1x8x512x512, .f32⟩
  | .hbm, ⟨14, _⟩ => ⟨S4x1x8x512x512, .f32⟩
  | .hbm, ⟨15, _⟩ => ⟨S4x1x8x512x512, .f32⟩
  | .hbm, ⟨16, _⟩ => ⟨S_, .f32⟩
  | .hbm, ⟨17, _⟩ => ⟨S4x1x8x512x512, .f32⟩
  | .hbm, ⟨18, _⟩ => ⟨S4x1x8x512x512, .f32⟩
  | .hbm, ⟨19, _⟩ => ⟨S4x1x8x512x512, .f32⟩
  | .hbm, ⟨20, _⟩ => ⟨S_, .f32⟩
  | .hbm, ⟨21, _⟩ => ⟨S4x1x8x512x512, .f32⟩
  | .hbm, ⟨22, _⟩ => ⟨S4x1x8x512x512, .f32⟩
  | .hbm, ⟨23, _⟩ => ⟨S4x1x8x1x512, .f32⟩
  | .hbm, ⟨24, _⟩ => ⟨S4x1x8x513x512, .f32⟩
  | .hbm, ⟨25, _⟩ => ⟨S4x1x8x512x512, .f32⟩
  | .hbm, ⟨26, _⟩ => ⟨S4x1x8x512x512, .f32⟩
  | .hbm, ⟨27, _⟩ => ⟨S4x1x8x512x512, .f32⟩
  | .hbm, ⟨28, _⟩ => ⟨S_, .f32⟩
  | .hbm, ⟨29, _⟩ => ⟨S4x1x8x512x512, .f32⟩
  | .hbm, ⟨30, _⟩ => ⟨S4x1x8x512x512, .f32⟩
  | .hbm, ⟨31, _⟩ => ⟨S4x1x8x512x512, .f32⟩
  | .hbm, ⟨32, _⟩ => ⟨S_, .f32⟩
  | .hbm, ⟨33, _⟩ => ⟨S4x1x8x512x512, .f32⟩
  | .hbm, ⟨34, _⟩ => ⟨S4x1x8x512x512, .f32⟩
  | .hbm, ⟨35, _⟩ => ⟨S4x1x8x512x1, .f32⟩
  | .hbm, ⟨36, _⟩ => ⟨S4x1x8x512x513, .f32⟩
  | .hbm, ⟨37, _⟩ => ⟨S4x1x8x512x512, .f32⟩
  | .hbm, ⟨38, _⟩ => ⟨S4x1x8x512x512, .f32⟩
  | .hbm, ⟨39, _⟩ => ⟨S4x1x8x512x512, .f32⟩
  | .hbm, ⟨40, _⟩ => ⟨S_, .f32⟩
  | .hbm, ⟨41, _⟩ => ⟨S4x1x8x512x512, .f32⟩
  | .hbm, ⟨42, _⟩ => ⟨S4x1x8x512x512, .f32⟩
  | .hbm, ⟨43, _⟩ => ⟨S4x1x8x512x512, .f32⟩
  | .hbm, ⟨44, _⟩ => ⟨S_, .f32⟩
  | .hbm, ⟨45, _⟩ => ⟨S4x1x8x512x512, .f32⟩
  | .hbm, ⟨46, _⟩ => ⟨S4x1x8x512x512, .f32⟩
  | .hbm, ⟨47, _⟩ => ⟨S4x1x8x512x1, .f32⟩
  | .hbm, ⟨48, _⟩ => ⟨S4x1x8x512x513, .f32⟩
  | .hbm, ⟨49, _⟩ => ⟨S4x1x8x512x512, .f32⟩
  | .hbm, ⟨50, _⟩ => ⟨S4x1x8x512x512, .f32⟩
  | .hbm, ⟨51, _⟩ => ⟨S4x1x8x512x512, .f32⟩
  | .hbm, ⟨52, _⟩ => ⟨S_, .f32⟩
  | .hbm, ⟨53, _⟩ => ⟨S4x1x8x512x512, .f32⟩
  | .hbm, ⟨54, _⟩ => ⟨S4x1x8x512x512, .f32⟩
  | .hbm, ⟨55, _⟩ => ⟨S4x1x8x512x512, .f32⟩
  | .hbm, ⟨56, _⟩ => ⟨S_, .f32⟩
  | .hbm, ⟨57, _⟩ => ⟨S4x1x8x512x512, .f32⟩
  | .hbm, ⟨58, _⟩ => ⟨S4x1x8x512x512, .f32⟩
  | .hbm, ⟨59, _⟩ => ⟨S4x1x8x512x1, .f32⟩
  | .hbm, ⟨60, _⟩ => ⟨S4x1x8x512x513, .f32⟩
  | .hbm, ⟨61, _⟩ => ⟨S4x1x8x512x512, .f32⟩
  | .hbm, ⟨62, _⟩ => ⟨S4x1x8x512x512, .f32⟩
  | .hbm, ⟨63, _⟩ => ⟨S4x1x8x512x512, .f32⟩
  | .hbm, ⟨64, _⟩ => ⟨S_, .f32⟩
  | .hbm, ⟨65, _⟩ => ⟨S4x1x8x512x512, .f32⟩
  | .hbm, ⟨66, _⟩ => ⟨S4x1x8x512x512, .f32⟩
  | .hbm, ⟨67, _⟩ => ⟨S4x1x8x512x512, .f32⟩
  | .hbm, ⟨68, _⟩ => ⟨S_, .f32⟩
  | .hbm, ⟨69, _⟩ => ⟨S4x1x8x512x512, .f32⟩
  | .hbm, ⟨70, _⟩ => ⟨S4x1x8x512x512, .f32⟩
  | .hbm, ⟨71, _⟩ => ⟨S4x1x8x512x1, .f32⟩
  | .hbm, ⟨72, _⟩ => ⟨S4x1x8x512x513, .f32⟩
  | .hbm, ⟨73, _⟩ => ⟨S4x1x8x512x512, .f32⟩
  | .hbm, ⟨74, _⟩ => ⟨S4x1x8x512x512, .f32⟩
  | .hbm, ⟨75, _⟩ => ⟨S4x1x8x512x512, .f32⟩
  | .hbm, ⟨76, _⟩ => ⟨S_, .f32⟩
  | .hbm, ⟨77, _⟩ => ⟨S4x1x8x512x512, .f32⟩
  | .hbm, ⟨78, _⟩ => ⟨S4x1x8x512x512, .f32⟩
  | .hbm, ⟨79, _⟩ => ⟨S4x1x8x512x512, .f32⟩
  | .hbm, ⟨80, _⟩ => ⟨S_, .f32⟩
  | .hbm, ⟨81, _⟩ => ⟨S4x1x8x512x512, .f32⟩
  | .hbm, ⟨82, _⟩ => ⟨S4x1x8x512x512, .f32⟩
  | .hbm, ⟨83, _⟩ => ⟨S4x1x56x512x512, .f32⟩
  | .hbm, ⟨84, _⟩ => ⟨S4x56x512x512, .f32⟩
  | _, _ => ⟨S4x1x9x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_3 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_4 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_5 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_6 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_7 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_8 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_9 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_10 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_11 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_12 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩

abbrev nD : Nat := 1
abbrev τ : Topo := Topo.v7x

variable {F : FTy → Type} [FloatOps F]

class Facts₀ : Prop where
  slices_S4x1x9x512x512_S4x1x8x512x512_0_0_0_0_0 : S4x1x9x512x512.Slices ![0, 0, 0, 0, 0] S4x1x8x512x512
  slices_S4x1x9x512x512_S4x1x8x512x512_0_0_1_0_0 : S4x1x9x512x512.Slices ![0, 0, 1, 0, 0] S4x1x8x512x512
  bcast_S_S4x1x8x512x512 : S_.BroadcastsInDim S4x1x8x512x512 (![] : Fin 0 → Fin S4x1x8x512x512.rank)
  slices_S4x1x8x512x512_S4x1x8x1x512_0_0_0_0_0 : S4x1x8x512x512.Slices ![0, 0, 0, 0, 0] S4x1x8x1x512
  concatenates_S4x1x8x1x512_S4x1x8x512x512_S4x1x8x513x512_d3 : Shape.Concatenates [S4x1x8x1x512, S4x1x8x512x512] S4x1x8x513x512 3
  slices_S4x1x8x513x512_S4x1x8x512x512_0_0_0_0_0 : S4x1x8x513x512.Slices ![0, 0, 0, 0, 0] S4x1x8x512x512
  slices_S4x1x8x513x512_S4x1x8x512x512_0_0_0_1_0 : S4x1x8x513x512.Slices ![0, 0, 0, 1, 0] S4x1x8x512x512
  slices_S4x1x8x512x512_S4x1x8x512x1_0_0_0_0_0 : S4x1x8x512x512.Slices ![0, 0, 0, 0, 0] S4x1x8x512x1
  concatenates_S4x1x8x512x1_S4x1x8x512x512_S4x1x8x512x513_d4 : Shape.Concatenates [S4x1x8x512x1, S4x1x8x512x512] S4x1x8x512x513 4
  slices_S4x1x8x512x513_S4x1x8x512x512_0_0_0_0_0 : S4x1x8x512x513.Slices ![0, 0, 0, 0, 0] S4x1x8x512x512
  slices_S4x1x8x512x513_S4x1x8x512x512_0_0_0_0_1 : S4x1x8x512x513.Slices ![0, 0, 0, 0, 1] S4x1x8x512x512
  concatenates_S4x1x8x512x512_S4x1x8x512x512_S4x1x8x512x512_S4x1x8x512x512_S4x1x8x512x512_S4x1x8x512x512_S4x1x8x512x512_S4x1x56x512x512_d2 : Shape.Concatenates [S4x1x8x512x512, S4x1x8x512x512, S4x1x8x512x512, S4x1x8x512x512, S4x1x8x512x512, S4x1x8x512x512, S4x1x8x512x512] S4x1x56x512x512 2
  shapeCasts_S4x1x56x512x512_S4x56x512x512 : S4x1x56x512x512.ShapeCasts S4x56x512x512

variable [Facts₀]

class Facts : Prop extends Facts₀ where

variable [Facts]
-- ==== Proof.K.Body.lean ====
/-
  The frame of the wavelet kernel's program: every weakly fair execution of @main ends, faults nowhere, and leaves
  the input array as it was; on the way each grid point's body is run symbolically and what it leaves in the two
  results' staging buffers is NAMED, so that a value claim can read the results off the run.

  The grid is (batch, row tile): 4 × 16 points. The input window is the whole 9 × 512 × 512 slab of a batch (fetched
  once per batch); each result window is a tile of 32 rows. The body has two branches, exactly one of which is taken
  at a point: at row tile 0 it reads rows 0‥31 of the slab (the row before row 0 is row 0 itself); at a later tile
  it reads the 40 rows that start 8 rows before the tile, so that the row before the tile's first row is there. Either
  way it then stores the whole tile of the first result and the whole tile of the second.
-/
import proofs.«119886_j28097676051225_1_alg».proof.Proof.Gen.Kernel.Frame
import proofs.«119886_j28097676051225_1_alg».proof.Proof.Gen.Kernel.Skeleton
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes through -/

/-- Rows 0‥31 of the slab: what the first row tile reads. -/
abbrev rTop : Rect S1x1x9x512x512 :=
  Rect.unit (s := S1x1x9x512x512) ![0, 0, 0, 0, 0] S1x1x9x32x512.size Facts₀.inb_S1x1x9x512x512_S1x1x9x32x512_0_0_0_0_0
/-- The 40 rows that start 8 rows before the tile: what a later row tile reads. -/
abbrev rWin (i : grid0.Coords) (h : k0_cond2 i = 1#1) : Rect S1x1x9x512x512 :=
  Rect.unit (s := S1x1x9x512x512) (k0_off1 i) S1x1x9x40x512.size (Facts₀.k0_off1_inb i h)
/-- The whole tile of the first result, -/
abbrev rO1 : Rect S1x1x8x32x512 :=
  Rect.unit (s := S1x1x8x32x512) ![0, 0, 0, 0, 0] S1x1x8x32x512.size Facts₀.inb_S1x1x8x32x512_S1x1x8x32x512_0_0_0_0_0
/-- and of the second. -/
abbrev rO2 : Rect S1x56x32x512 :=
  Rect.unit (s := S1x56x32x512) ![0, 0, 0, 0] S1x56x32x512.size Facts₀.inb_S1x56x32x512_S1x56x32x512_0_0_0_0

/-! ## What the body stores, as functions of the slab -/

/-- At row tile 0: the low-low-low tile, from rows 0‥31 of the slab, -/
def lllA (x0 : Vec F S1x1x9x512x512 .f32) : Vec F S1x1x8x32x512 .f32 :=
  k0_pay1 (k0_pay15 (View.ld x0 rTop))
/-- and the seven other bands' tile. -/
def highA (x0 : Vec F S1x1x9x512x512 .f32) : Vec F S1x56x32x512 .f32 :=
  k0_pay2 (k0_pay12 (View.ld x0 rTop)) (k0_pay13 (View.ld x0 rTop)) (k0_pay16 (View.ld x0 rTop))
    (k0_pay18 (View.ld x0 rTop)) (k0_pay19 (View.ld x0 rTop))
/-- At a later row tile: the same two, from the 40 rows around the tile. -/
def lllB (i : grid0.Coords) (h : k0_cond2 i = 1#1) (x0 : Vec F S1x1x9x512x512 .f32) : Vec F S1x1x8x32x512 .f32 :=
  k0_pay3 (k0_pay32 (View.ld x0 (rWin i h)))
def highB (i : grid0.Coords) (h : k0_cond2 i = 1#1) (x0 : Vec F S1x1x9x512x512 .f32) : Vec F S1x56x32x512 .f32 :=
  k0_pay4 (k0_pay28 (View.ld x0 (rWin i h))) (k0_pay29 (View.ld x0 (rWin i h))) (k0_pay30 (View.ld x0 (rWin i h)))
    (k0_pay33 (View.ld x0 (rWin i h))) (k0_pay34 (View.ld x0 (rWin i h))) (k0_pay35 (View.ld x0 (rWin i h)))
    (Scalar.ofBits .f32 0x3EB504F3#32)

/-- One store of the whole tile covers the tile. -/
theorem cover1 (p : Vec F S1x1x8x32x512 .f32) (y : S1x1x8x32x512.Idx) :
    ∃ pc ∈ ([⟨rO1, p⟩] : List (View.Piece (Elt F) S1x1x8x32x512 .f32)), y ∈ pc.1.set :=
  View.cover_of_tiled [⟨rO1, p⟩] S1x1x8x32x512.size (by rfl) y
theorem cover2 (p : Vec F S1x56x32x512 .f32) (y : S1x56x32x512.Idx) :
    ∃ pc ∈ ([⟨rO2, p⟩] : List (View.Piece (Elt F) S1x56x32x512 .f32)), y ∈ pc.1.set :=
  View.cover_of_tiled [⟨rO2, p⟩] S1x56x32x512.size (by rfl) y

/-- What the first result's staging buffer holds after the body at grid coordinates `i`, -/
def out1At (i : grid0.Coords) (x0 : Vec F S1x1x9x512x512 .f32) : Vec F S1x1x8x32x512 .f32 :=
  if h : k0_cond2 i = 1#1 then View.canon [⟨rO1, lllB i h x0⟩] else View.canon [⟨rO1, lllA x0⟩]
/-- and the second's. -/
def out2At (i : grid0.Coords) (x0 : Vec F S1x1x9x512x512 .f32) : Vec F S1x56x32x512 .f32 :=
  if h : k0_cond2 i = 1#1 then View.canon [⟨rO2, highB i h x0⟩] else View.canon [⟨rO2, highA x0⟩]

/-! ## The body's triple, one branch at a time -/

set_option maxHeartbeats 2000000 in
/-- Row tile 0: the first conditional's region runs, the second's does not. -/
theorem sound_kernelA (c : Dev nD) (E : Set ℕ) (i : grid0.Coords) (hc1 : k0_cond1 i = 1#1) (hc2 : ¬ k0_cond2 i = 1#1)
    (arg2 : Memref sig .tc .vmem S1x1x9x512x512 .f32) (harg2 : arg2.IsWhole)
    (arg3 : Memref sig .tc .vmem S1x1x8x32x512 .f32) (harg3 : arg3.IsWhole)
    (arg4 : Memref sig .tc .vmem S1x56x32x512 .f32) (harg4 : arg4.IsWhole)
    (x0 : Vec F S1x1x9x512x512 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (View.canon [⟨rO1, lllA x0⟩])
            ∗ owns (c : Thread nD τ) arg4 fullShare (View.canon [⟨rO2, highA x0⟩])) -∗ K ⟨⟩))
      ⊢ wp frame (wpE (defs₀ (F := F)) Variants.none c none) E (cc0__wavelet_kernel i arg2 harg2 arg3 harg3 arg4 harg4) K := by
  simp only [cc0__wavelet_kernel_eq_skeleton]; unfold cc0__wavelet_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover1 _)
  iexists _; isplitr
  swap; · iexact H2
  ipureintro
  exact View.read_writes_eq_canon _ _ _ (cover2 _)

set_option maxHeartbeats 2000000 in
/-- A later row tile: the second conditional's region runs, the first's does not. -/
theorem sound_kernelB (c : Dev nD) (E : Set ℕ) (i : grid0.Coords) (hc1 : ¬ k0_cond1 i = 1#1) (hc2 : k0_cond2 i = 1#1)
    (arg2 : Memref sig .tc .vmem S1x1x9x512x512 .f32) (harg2 : arg2.IsWhole)
    (arg3 : Memref sig .tc .vmem S1x1x8x32x512 .f32) (harg3 : arg3.IsWhole)
    (arg4 : Memref sig .tc .vmem S1x56x32x512 .f32) (harg4 : arg4.IsWhole)
    (x0 : Vec F S1x1x9x512x512 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (View.canon [⟨rO1, lllB i hc2 x0⟩])
            ∗ owns (c : Thread nD τ) arg4 fullShare (View.canon [⟨rO2, highB i hc2 x0⟩])) -∗ K ⟨⟩))
      ⊢ wp frame (wpE (defs₀ (F := F)) Variants.none c none) E (cc0__wavelet_kernel i arg2 harg2 arg3 harg3 arg4 harg4) K := by
  simp only [cc0__wavelet_kernel_eq_skeleton]; unfold cc0__wavelet_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover1 _)
  iexists _; isplitr
  swap; · iexact H2
  ipureintro
  exact View.read_writes_eq_canon _ _ _ (cover2 _)

/-! ## The grid's two kinds of points -/

/-- At every grid point exactly one of the two branch conditions holds. -/
theorem cond_cases : ∀ t : Fin cfg0.N,
    (k0_cond1 (grid0.coords t) = 1#1 ∧ ¬ k0_cond2 (grid0.coords t) = 1#1)
      ∨ (¬ k0_cond1 (grid0.coords t) = 1#1 ∧ k0_cond2 (grid0.coords t) = 1#1) :=
  (by decide +kernel : ∀ t : Fin grid0.N,
    (k0_cond1 (grid0.coords t) = 1#1 ∧ ¬ k0_cond2 (grid0.coords t) = 1#1)
      ∨ (¬ k0_cond1 (grid0.coords t) = 1#1 ∧ k0_cond2 (grid0.coords t) = 1#1))

/-- So the body stores into both results' buffers at every point: no point is idle for them (the two windows' entries
    of the idle table are one term). -/
theorem idle_1 : ∀ t : Fin grid0.N, idle0 1 (grid0.coords t) = false := by decide +kernel

/-! ## The pipeline's proof data -/

/-- The proof data of the one pipeline on core `c`: the arrays as the region finds them; after the body at point `t`
    the input's buffer at its block, the results' at what the branch taken there stores; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out1At (grid0.coords t) (iblk m c 0 t)
    | ⟨2, _⟩ => out2At (grid0.coords t) (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out1At (grid0.coords t) (iblk m c 0 t) := by dsimp only [dats]
theorem after0_2 (c : Dev nD) (t : Fin cfg0.N) : (dats m 0 c).after 2 t = out2At (grid0.coords t) (iblk m c 0 t) := by dsimp only [dats]

/-- The input's current staging buffer holds the batch's slab at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input's memref holds the slab; the branch the point takes is run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  rcases cond_cases t with ⟨h1, h2⟩ | ⟨h1, h2⟩
  · iapply (sound_kernelA c Set.univ (grid0.coords t) h1 h2 _ _ _ _ _ _ (iblk m c 0 t) _)
    isplitl [H0]; · iexact H0
    isplitl [H1]; · iexists _; iexact H1
    isplitl [H2]; · iexists _; iexact H2
    iintro ⟨H0, H1, H2⟩
    unfold out1At out2At
    rw [dif_neg h2, dif_neg h2]
    isplitl [HΦ]; · iexact HΦ
    isplitl [Ho]; · iexact Ho
    isplitl [H0]; · iexact H0
    isplitl [H1]; · iexact H1
    iexact H2
  · iapply (sound_kernelB c Set.univ (grid0.coords t) h1 h2 _ _ _ _ _ _ (iblk m c 0 t) _)
    isplitl [H0]; · iexact H0
    isplitl [H1]; · iexists _; iexact H1
    isplitl [H2]; · iexists _; iexact H2
    iintro ⟨H0, H1, H2⟩
    unfold out1At out2At
    rw [dif_pos h2, dif_pos h2]
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  have h1 : cfg0.idle 1 (cfg0.grid.coords t) = false := idle_1 t
  rw [h1]
  exact sound_body m c t

/-! ## The run and the frame -/

set_option backward.isDefEq.respectTransparency.types false in
/-- From any memory with zero counters every weakly fair execution of @main ends, with every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame: the input array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.KI.Body.lean ====
/-
  The frame of the wavelet kernel's program: every weakly fair execution of @main ends, faults nowhere, and leaves
  the input array as it was; on the way each grid point's body is run symbolically and what it leaves in the two
  results' staging buffers is NAMED, so that a value claim can read the results off the run.

  The grid is (batch, row tile): 4 × 16 points. The input window is the whole 9 × 512 × 512 slab of a batch (fetched
  once per batch); each result window is a tile of 32 rows. The body has two branches, exactly one of which is taken
  at a point: at row tile 0 it reads rows 0‥31 of the slab (the row before row 0 is row 0 itself); at a later tile
  it reads the 40 rows that start 8 rows before the tile, so that the row before the tile's first row is there. Either
  way it then stores the whole tile of the first result and the whole tile of the second.
-/
import proofs.«119886_j28097676051225_1_alg».proof.Proof.Gen.KernelIdeal.Frame
import proofs.«119886_j28097676051225_1_alg».proof.Proof.Gen.KernelIdeal.Skeleton
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes through -/

/-- Rows 0‥31 of the slab: what the first row tile reads. -/
abbrev rTop : Rect S1x1x9x512x512 :=
  Rect.unit (s := S1x1x9x512x512) ![0, 0, 0, 0, 0] S1x1x9x32x512.size Facts₀.inb_S1x1x9x512x512_S1x1x9x32x512_0_0_0_0_0
/-- The 40 rows that start 8 rows before the tile: what a later row tile reads. -/
abbrev rWin (i : grid0.Coords) (h : k0_cond2 i = 1#1) : Rect S1x1x9x512x512 :=
  Rect.unit (s := S1x1x9x512x512) (k0_off1 i) S1x1x9x40x512.size (Facts₀.k0_off1_inb i h)
/-- The whole tile of the first result, -/
abbrev rO1 : Rect S1x1x8x32x512 :=
  Rect.unit (s := S1x1x8x32x512) ![0, 0, 0, 0, 0] S1x1x8x32x512.size Facts₀.inb_S1x1x8x32x512_S1x1x8x32x512_0_0_0_0_0
/-- and of the second. -/
abbrev rO2 : Rect S1x56x32x512 :=
  Rect.unit (s := S1x56x32x512) ![0, 0, 0, 0] S1x56x32x512.size Facts₀.inb_S1x56x32x512_S1x56x32x512_0_0_0_0

/-! ## What the body stores, as functions of the slab -/

/-- At row tile 0: the low-low-low tile, from rows 0‥31 of the slab, -/
def lllA (x0 : Vec F S1x1x9x512x512 .f32) : Vec F S1x1x8x32x512 .f32 :=
  k0_pay1 (k0_pay15 (View.ld x0 rTop))
/-- and the seven other bands' tile. -/
def highA (x0 : Vec F S1x1x9x512x512 .f32) : Vec F S1x56x32x512 .f32 :=
  k0_pay2 (k0_pay12 (View.ld x0 rTop)) (k0_pay13 (View.ld x0 rTop)) (k0_pay16 (View.ld x0 rTop))
    (k0_pay18 (View.ld x0 rTop)) (k0_pay19 (View.ld x0 rTop))
/-- At a later row tile: the same two, from the 40 rows around the tile. -/
def lllB (i : grid0.Coords) (h : k0_cond2 i = 1#1) (x0 : Vec F S1x1x9x512x512 .f32) : Vec F S1x1x8x32x512 .f32 :=
  k0_pay3 (k0_pay32 (View.ld x0 (rWin i h)))
def highB (i : grid0.Coords) (h : k0_cond2 i = 1#1) (x0 : Vec F S1x1x9x512x512 .f32) : Vec F S1x56x32x512 .f32 :=
  k0_pay4 (k0_pay28 (View.ld x0 (rWin i h))) (k0_pay29 (View.ld x0 (rWin i h))) (k0_pay30 (View.ld x0 (rWin i h)))
    (k0_pay33 (View.ld x0 (rWin i h))) (k0_pay34 (View.ld x0 (rWin i h))) (k0_pay35 (View.ld x0 (rWin i h)))
    (Scalar.ofBits .f32 0x3EB504F3#32)

/-- One store of the whole tile covers the tile. -/
theorem cover1 (p : Vec F S1x1x8x32x512 .f32) (y : S1x1x8x32x512.Idx) :
    ∃ pc ∈ ([⟨rO1, p⟩] : List (View.Piece (Elt F) S1x1x8x32x512 .f32)), y ∈ pc.1.set :=
  View.cover_of_tiled [⟨rO1, p⟩] S1x1x8x32x512.size (by rfl) y
theorem cover2 (p : Vec F S1x56x32x512 .f32) (y : S1x56x32x512.Idx) :
    ∃ pc ∈ ([⟨rO2, p⟩] : List (View.Piece (Elt F) S1x56x32x512 .f32)), y ∈ pc.1.set :=
  View.cover_of_tiled [⟨rO2, p⟩] S1x56x32x512.size (by rfl) y

/-- What the first result's staging buffer holds after the body at grid coordinates `i`, -/
def out1At (i : grid0.Coords) (x0 : Vec F S1x1x9x512x512 .f32) : Vec F S1x1x8x32x512 .f32 :=
  if h : k0_cond2 i = 1#1 then View.canon [⟨rO1, lllB i h x0⟩] else View.canon [⟨rO1, lllA x0⟩]
/-- and the second's. -/
def out2At (i : grid0.Coords) (x0 : Vec F S1x1x9x512x512 .f32) : Vec F S1x56x32x512 .f32 :=
  if h : k0_cond2 i = 1#1 then View.canon [⟨rO2, highB i h x0⟩] else View.canon [⟨rO2, highA x0⟩]

/-! ## The body's triple, one branch at a time -/

set_option maxHeartbeats 2000000 in
/-- Row tile 0: the first conditional's region runs, the second's does not. -/
theorem sound_kernelA (c : Dev nD) (E : Set ℕ) (i : grid0.Coords) (hc1 : k0_cond1 i = 1#1) (hc2 : ¬ k0_cond2 i = 1#1)
    (arg2 : Memref sig .tc .vmem S1x1x9x512x512 .f32) (harg2 : arg2.IsWhole)
    (arg3 : Memref sig .tc .vmem S1x1x8x32x512 .f32) (harg3 : arg3.IsWhole)
    (arg4 : Memref sig .tc .vmem S1x56x32x512 .f32) (harg4 : arg4.IsWhole)
    (x0 : Vec F S1x1x9x512x512 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (View.canon [⟨rO1, lllA x0⟩])
            ∗ owns (c : Thread nD τ) arg4 fullShare (View.canon [⟨rO2, highA x0⟩])) -∗ K ⟨⟩))
      ⊢ wp frame (wpE (defs₀ (F := F)) Variants.none c none) E (cc0__wavelet_kernel i arg2 harg2 arg3 harg3 arg4 harg4) K := by
  simp only [cc0__wavelet_kernel_eq_skeleton]; unfold cc0__wavelet_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover1 _)
  iexists _; isplitr
  swap; · iexact H2
  ipureintro
  exact View.read_writes_eq_canon _ _ _ (cover2 _)

set_option maxHeartbeats 2000000 in
/-- A later row tile: the second conditional's region runs, the first's does not. -/
theorem sound_kernelB (c : Dev nD) (E : Set ℕ) (i : grid0.Coords) (hc1 : ¬ k0_cond1 i = 1#1) (hc2 : k0_cond2 i = 1#1)
    (arg2 : Memref sig .tc .vmem S1x1x9x512x512 .f32) (harg2 : arg2.IsWhole)
    (arg3 : Memref sig .tc .vmem S1x1x8x32x512 .f32) (harg3 : arg3.IsWhole)
    (arg4 : Memref sig .tc .vmem S1x56x32x512 .f32) (harg4 : arg4.IsWhole)
    (x0 : Vec F S1x1x9x512x512 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (View.canon [⟨rO1, lllB i hc2 x0⟩])
            ∗ owns (c : Thread nD τ) arg4 fullShare (View.canon [⟨rO2, highB i hc2 x0⟩])) -∗ K ⟨⟩))
      ⊢ wp frame (wpE (defs₀ (F := F)) Variants.none c none) E (cc0__wavelet_kernel i arg2 harg2 arg3 harg3 arg4 harg4) K := by
  simp only [cc0__wavelet_kernel_eq_skeleton]; unfold cc0__wavelet_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover1 _)
  iexists _; isplitr
  swap; · iexact H2
  ipureintro
  exact View.read_writes_eq_canon _ _ _ (cover2 _)

/-! ## The grid's two kinds of points -/

/-- At every grid point exactly one of the two branch conditions holds. -/
theorem cond_cases : ∀ t : Fin cfg0.N,
    (k0_cond1 (grid0.coords t) = 1#1 ∧ ¬ k0_cond2 (grid0.coords t) = 1#1)
      ∨ (¬ k0_cond1 (grid0.coords t) = 1#1 ∧ k0_cond2 (grid0.coords t) = 1#1) :=
  (by decide +kernel : ∀ t : Fin grid0.N,
    (k0_cond1 (grid0.coords t) = 1#1 ∧ ¬ k0_cond2 (grid0.coords t) = 1#1)
      ∨ (¬ k0_cond1 (grid0.coords t) = 1#1 ∧ k0_cond2 (grid0.coords t) = 1#1))

/-- So the body stores into both results' buffers at every point: no point is idle for them (the two windows' entries
    of the idle table are one term). -/
theorem idle_1 : ∀ t : Fin grid0.N, idle0 1 (grid0.coords t) = false := by decide +kernel

/-! ## The pipeline's proof data -/

/-- The proof data of the one pipeline on core `c`: the arrays as the region finds them; after the body at point `t`
    the input's buffer at its block, the results' at what the branch taken there stores; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out1At (grid0.coords t) (iblk m c 0 t)
    | ⟨2, _⟩ => out2At (grid0.coords t) (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out1At (grid0.coords t) (iblk m c 0 t) := by dsimp only [dats]
theorem after0_2 (c : Dev nD) (t : Fin cfg0.N) : (dats m 0 c).after 2 t = out2At (grid0.coords t) (iblk m c 0 t) := by dsimp only [dats]

/-- The input's current staging buffer holds the batch's slab at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input's memref holds the slab; the branch the point takes is run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  rcases cond_cases t with ⟨h1, h2⟩ | ⟨h1, h2⟩
  · iapply (sound_kernelA c Set.univ (grid0.coords t) h1 h2 _ _ _ _ _ _ (iblk m c 0 t) _)
    isplitl [H0]; · iexact H0
    isplitl [H1]; · iexists _; iexact H1
    isplitl [H2]; · iexists _; iexact H2
    iintro ⟨H0, H1, H2⟩
    unfold out1At out2At
    rw [dif_neg h2, dif_neg h2]
    isplitl [HΦ]; · iexact HΦ
    isplitl [Ho]; · iexact Ho
    isplitl [H0]; · iexact H0
    isplitl [H1]; · iexact H1
    iexact H2
  · iapply (sound_kernelB c Set.univ (grid0.coords t) h1 h2 _ _ _ _ _ _ (iblk m c 0 t) _)
    isplitl [H0]; · iexact H0
    isplitl [H1]; · iexists _; iexact H1
    isplitl [H2]; · iexists _; iexact H2
    iintro ⟨H0, H1, H2⟩
    unfold out1At out2At
    rw [dif_pos h2, dif_pos h2]
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  have h1 : cfg0.idle 1 (cfg0.grid.coords t) = false := idle_1 t
  rw [h1]
  exact sound_body m c t

/-! ## The run and the frame -/

set_option backward.isDefEq.respectTransparency.types false in
/-- From any memory with zero counters every weakly fair execution of @main ends, with every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame: the input array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.Spec.lean ====
/-
  The separable three-dimensional Haar transform, as ONE function of the input array, index by index.

  Along the frame axis a pair (low, high) is  s·(x[f] + x[f+1])  and  s·(x[f+1] − x[f])  (eight frames out of nine);
  along the row axis and along the column axis the neighbour is the PREVIOUS entry, the first entry being its own
  neighbour (a pad by one replicated entry in front): low = s·(a[r−1] + a[r]), high = s·(a[r] − a[r−1]), where r − 1 is
  the truncated difference of natural numbers, so that the entry before row 0 is row 0 itself. The eight sub-bands
  are the three-fold compositions; the first result is the low-low-low band, the second lays the other seven out along
  the channel axis, band after band, eight frames each.

  Coordinates are natural numbers (batch, frame, row, column) so that the arithmetic of a shifted row or column
  is plain; the input array is read through `Xof`, which is the array inside its extents.
-/
import Idealize.ShloMosaic.PureOps.Ideal
import Idealize.ShloMosaic.Lib.ValueIdx

noncomputable section

namespace Cert.Haar

open Idealize.ShloMosaic Idealize.ShloMosaic.ValueIdx

/-- A four-dimensional array of extended reals by natural coordinates: batch, frame, row, column. -/
abbrev Arr := ℕ → ℕ → ℕ → ℕ → EReal

/-- The scale both programs use: the extended real the word `0x3EB504F3` denotes. It is never evaluated. -/
def sW : EReal := Ideal.ofBits .f32 0x3EB504F3#32

section Ops
variable (s : EReal)

/-- Low band along the frames: a frame plus the next. -/
def loF (X : Arr) : Arr := fun b f r c => s * (X b f r c + X b (f + 1) r c)
/-- High band along the frames: the next frame minus this one. -/
def hiF (X : Arr) : Arr := fun b f r c => s * (X b (f + 1) r c - X b f r c)
/-- Low band along the rows: the previous row (row 0 its own predecessor) plus this one. -/
def loR (A : Arr) : Arr := fun b f r c => s * (A b f (r - 1) c + A b f r c)
/-- High band along the rows: this row minus the previous one. -/
def hiR (A : Arr) : Arr := fun b f r c => s * (A b f r c - A b f (r - 1) c)
/-- Low band along the columns. -/
def loC (A : Arr) : Arr := fun b f r c => s * (A b f r (c - 1) + A b f r c)
/-- High band along the columns. -/
def hiC (A : Arr) : Arr := fun b f r c => s * (A b f r c - A b f r (c - 1))

/-- The low-low-low band. -/
def lll (X : Arr) : Arr := loC s (loR s (loF s X))

/-- The seven other bands, in the order they are laid out: (frames, rows, columns) =
    LLH, LHL, LHH, HLL, HLH, HHL, HHH. -/
def band (X : Arr) : ℕ → Arr
  | 0 => hiC s (loR s (loF s X))
  | 1 => loC s (hiR s (loF s X))
  | 2 => hiC s (hiR s (loF s X))
  | 3 => loC s (loR s (hiF s X))
  | 4 => hiC s (loR s (hiF s X))
  | 5 => loC s (hiR s (hiF s X))
  | _ => hiC s (hiR s (hiF s X))

/-- The seven bands along one channel axis: channel `ch` is frame `ch % 8` of band `ch / 8`. -/
def high (X : Arr) : Arr := fun b ch r c => band s X (ch / 8) b (ch % 8) r c

end Ops

/-- The input's shape, and the two results'. -/
abbrev SX : Shape := ⟨5, ![4, 1, 9, 512, 512]⟩
abbrev SO0 : Shape := ⟨5, ![4, 1, 8, 512, 512]⟩
abbrev SO1 : Shape := ⟨4, ![4, 56, 512, 512]⟩

/-- The input array by natural coordinates (zero outside its extents, where nothing reads it). -/
def Xof (x : SX.Idx → EReal) : Arr := fun b f r c =>
  if h : b < 4 ∧ f < 9 ∧ r < 512 ∧ c < 512 then
    x (ix5 (⟨b, h.1⟩ : Fin 4) (0 : Fin 1) (⟨f, h.2.1⟩ : Fin 9) (⟨r, h.2.2.1⟩ : Fin 512) (⟨c, h.2.2.2⟩ : Fin 512))
  else 0

theorem Xof_apply (x : SX.Idx → EReal) (b : Fin 4) (f : Fin 9) (r c : Fin 512) :
    Xof x b.val f.val r.val c.val = x (ix5 b (0 : Fin 1) f r c) := by
  unfold Xof
  rw [dif_pos ⟨b.isLt, f.isLt, r.isLt, c.isLt⟩]

/-- The input array at an index is `Xof` at the index's coordinates (the channel axis has one entry). -/
theorem Xof_idx (x : SX.Idx → EReal) (k : SX.Idx) : Xof x (k 0).val (k 2).val (k 3).val (k 4).val = x k := by
  unfold Xof
  rw [dif_pos ⟨(k 0).isLt, (k 2).isLt, (k 3).isLt, (k 4).isLt⟩]
  congr 1
  funext a
  match a with
  | ⟨0, _⟩ => rfl
  | ⟨1, _⟩ => exact Fin.ext (by have h1 : (k 1).val < 1 := (k 1).isLt; show 0 = (k 1).val; omega)
  | ⟨2, _⟩ => rfl
  | ⟨3, _⟩ => rfl
  | ⟨4, _⟩ => rfl

/-- The same, the coordinates given as numbers. -/
theorem Xof_of_val (x : SX.Idx → EReal) (k : SX.Idx) (b f r c : ℕ)
    (h0 : (k 0).val = b) (h2 : (k 2).val = f) (h3 : (k 3).val = r) (h4 : (k 4).val = c) :
    x k = Xof x b f r c := by
  subst h0 h2 h3 h4
  exact (Xof_idx x k).symm

/-- The first result as one function of the input. -/
def G0 (s : EReal) (x : SX.Idx → EReal) : SO0.Idx → EReal :=
  fun j => lll s (Xof x) (j 0).val (j 2).val (j 3).val (j 4).val

/-- The second result as one function of the input. -/
def G1 (s : EReal) (x : SX.Idx → EReal) : SO1.Idx → EReal :=
  fun j => high s (Xof x) (j 0).val (j 1).val (j 2).val (j 3).val

end Cert.Haar

end
-- ==== Proof.Lay.lean ====
/-
  Layout operations of the kernel body read at an index, over arrays of the body's literal shapes.

  The body works on three-dimensional values (frames, rows, columns). A block of the input arrives with two unit axes
  in front, which a shape cast drops; a result leaves with unit axes added. "The previous row" and "the previous column"
  are spelt as a concatenation of the first row (column) with all rows (columns) but the last; a window of 32 rows is
  cut out of 40; eight frames out of nine; seven bands are stacked along the frame axis into 56 channels.
  Each lemma reads one such spelling at coordinates (f, r, c).
-/
import Idealize.ShloMosaic.Lib.Pipeline.Value
import Idealize.ShloMosaic.Lib.ValueIdx

noncomputable section

namespace Cert.Haar.Lay

open Idealize.ShloMosaic Idealize.ShloMosaic.ValueIdx

variable {α : Type}

/-- A rank-three shape by its extents. -/
abbrev T3 (a b c : ℕ) : Shape := ⟨3, ![a, b, c]⟩

/-- The previous column, the first column its own predecessor: column 0 in front of columns 0‥510. -/
theorem shiftCol_apply (A : (T3 8 32 512).Idx → α)
    (h1 : (T3 8 32 512).Slices ![0, 0, 0] (T3 8 32 1)) (h2 : (T3 8 32 512).Slices ![0, 0, 0] (T3 8 32 511))
    (hc : Shape.Concatenates [T3 8 32 1, T3 8 32 511] (T3 8 32 512) 2)
    (f : Fin 8) (r : Fin 32) (c : Fin 512) :
    concatenate (T3 8 32 512) 2 [⟨T3 8 32 1, extractStridedSlice (T3 8 32 1) ![0, 0, 0] A h1⟩,
        ⟨T3 8 32 511, extractStridedSlice (T3 8 32 511) ![0, 0, 0] A h2⟩] hc (ix3 f r c)
      = A (ix3 f r (⟨c.val - 1, by omega⟩ : Fin 512)) := by
  have hlt := c.isLt
  by_cases hc0 : c.val = 0
  · -- column 0 lies in the one-column piece, which is column 0 of the array; and 0 - 1 = 0
    refine (concatenate_pair_apply_left 2 (extractStridedSlice (T3 8 32 1) ![0, 0, 0] A h1)
      (extractStridedSlice (T3 8 32 511) ![0, 0, 0] A h2) hc (ix3 f r c) rfl (ix3 f r (⟨0, Nat.one_pos⟩ : Fin 1))
      (fun b => match b with
        | ⟨0, _⟩ => rfl
        | ⟨1, _⟩ => rfl
        | ⟨2, _⟩ => by show (0 : ℕ) = c.val; omega)).trans ?_
    exact extractStridedSlice_apply ![0, 0, 0] A h1 (ix3 f r (⟨0, Nat.one_pos⟩ : Fin 1))
      (ix3 f r (⟨c.val - 1, by omega⟩ : Fin 512))
      (fun a => match a with
        | ⟨0, _⟩ => by show f.val = 0 + f.val; omega
        | ⟨1, _⟩ => by show r.val = 0 + r.val; omega
        | ⟨2, _⟩ => by show c.val - 1 = 0 + 0; omega)
  · -- a column c ≥ 1 lies in the second piece at c - 1, which is column c - 1 of the array
    refine (concatenate_pair_apply_right 2 (extractStridedSlice (T3 8 32 1) ![0, 0, 0] A h1)
      (extractStridedSlice (T3 8 32 511) ![0, 0, 0] A h2) hc (ix3 f r c) rfl rfl
      (ix3 f r (⟨c.val - 1, by omega⟩ : Fin 511))
      (fun b hb => match b, hb with
        | ⟨0, _⟩, _ => rfl
        | ⟨1, _⟩, _ => rfl
        | ⟨2, _⟩, hb => absurd rfl hb)
      (by show c.val - 1 + 1 = c.val; omega)).trans ?_
    exact extractStridedSlice_apply ![0, 0, 0] A h2 (ix3 f r (⟨c.val - 1, by omega⟩ : Fin 511))
      (ix3 f r (⟨c.val - 1, by omega⟩ : Fin 512))
      (fun a => match a with
        | ⟨0, _⟩ => by show f.val = 0 + f.val; omega
        | ⟨1, _⟩ => by show r.val = 0 + r.val; omega
        | ⟨2, _⟩ => by show c.val - 1 = 0 + (c.val - 1); omega)

/-- The previous row, the first row its own predecessor: row 0 in front of rows 0‥30. -/
theorem shiftRow_apply (A : (T3 8 32 512).Idx → α)
    (h1 : (T3 8 32 512).Slices ![0, 0, 0] (T3 8 1 512)) (h2 : (T3 8 32 512).Slices ![0, 0, 0] (T3 8 31 512))
    (hc : Shape.Concatenates [T3 8 1 512, T3 8 31 512] (T3 8 32 512) 1)
    (f : Fin 8) (r : Fin 32) (c : Fin 512) :
    concatenate (T3 8 32 512) 1 [⟨T3 8 1 512, extractStridedSlice (T3 8 1 512) ![0, 0, 0] A h1⟩,
        ⟨T3 8 31 512, extractStridedSlice (T3 8 31 512) ![0, 0, 0] A h2⟩] hc (ix3 f r c)
      = A (ix3 f (⟨r.val - 1, by omega⟩ : Fin 32) c) := by
  have hlt := r.isLt
  by_cases hr0 : r.val = 0
  · -- row 0 lies in the one-row piece, which is row 0 of the array; and 0 - 1 = 0
    refine (concatenate_pair_apply_left 1 (extractStridedSlice (T3 8 1 512) ![0, 0, 0] A h1)
      (extractStridedSlice (T3 8 31 512) ![0, 0, 0] A h2) hc (ix3 f r c) rfl (ix3 f (⟨0, Nat.one_pos⟩ : Fin 1) c)
      (fun b => match b with
        | ⟨0, _⟩ => rfl
        | ⟨1, _⟩ => by show (0 : ℕ) = r.val; omega
        | ⟨2, _⟩ => rfl)).trans ?_
    exact extractStridedSlice_apply ![0, 0, 0] A h1 (ix3 f (⟨0, Nat.one_pos⟩ : Fin 1) c)
      (ix3 f (⟨r.val - 1, by omega⟩ : Fin 32) c)
      (fun a => match a with
        | ⟨0, _⟩ => by show f.val = 0 + f.val; omega
        | ⟨1, _⟩ => by show r.val - 1 = 0 + 0; omega
        | ⟨2, _⟩ => by show c.val = 0 + c.val; omega)
  · -- a row r ≥ 1 lies in the second piece at r - 1, which is row r - 1 of the array
    refine (concatenate_pair_apply_right 1 (extractStridedSlice (T3 8 1 512) ![0, 0, 0] A h1)
      (extractStridedSlice (T3 8 31 512) ![0, 0, 0] A h2) hc (ix3 f r c) rfl rfl
      (ix3 f (⟨r.val - 1, by omega⟩ : Fin 31) c)
      (fun b hb => match b, hb with
        | ⟨0, _⟩, _ => rfl
        | ⟨1, _⟩, hb => absurd rfl hb
        | ⟨2, _⟩, _ => rfl)
      (by show r.val - 1 + 1 = r.val; omega)).trans ?_
    exact extractStridedSlice_apply ![0, 0, 0] A h2 (ix3 f (⟨r.val - 1, by omega⟩ : Fin 31) c)
      (ix3 f (⟨r.val - 1, by omega⟩ : Fin 32) c)
      (fun a => match a with
        | ⟨0, _⟩ => by show f.val = 0 + f.val; omega
        | ⟨1, _⟩ => by show r.val - 1 = 0 + (r.val - 1); omega
        | ⟨2, _⟩ => by show c.val = 0 + c.val; omega)

/-- Thirty-two rows out of forty, from row `o`. -/
theorem sliceRows_apply (A : (T3 8 40 512).Idx → α) (o : ℕ) (ho : o + 32 ≤ 40)
    (h : (T3 8 40 512).Slices ![0, o, 0] (T3 8 32 512)) (f : Fin 8) (r : Fin 32) (c : Fin 512) :
    extractStridedSlice (T3 8 32 512) ![0, o, 0] A h (ix3 f r c) = A (ix3 f (⟨o + r.val, by omega⟩ : Fin 40) c) :=
  extractStridedSlice_apply ![0, o, 0] A h (ix3 f r c) (ix3 f (⟨o + r.val, by omega⟩ : Fin 40) c)
    (fun a => match a with
      | ⟨0, _⟩ => by show f.val = 0 + f.val; omega
      | ⟨1, _⟩ => by show o + r.val = o + r.val; rfl
      | ⟨2, _⟩ => by show c.val = 0 + c.val; omega)

/-- Eight frames out of nine, from frame `o` (0 or 1), whatever the number of rows. -/
theorem sliceFrames_apply {R : ℕ} (A : (T3 9 R 512).Idx → α) (o : ℕ) (ho : o + 8 ≤ 9)
    (h : (T3 9 R 512).Slices ![o, 0, 0] (T3 8 R 512)) (f : Fin 8) (r : Fin R) (c : Fin 512) :
    extractStridedSlice (T3 8 R 512) ![o, 0, 0] A h (ix3 f r c) = A (ix3 (⟨o + f.val, by omega⟩ : Fin 9) r c) :=
  extractStridedSlice_apply ![o, 0, 0] A h (ix3 f r c) (ix3 (⟨o + f.val, by omega⟩ : Fin 9) r c)
    (fun a => match a with
      | ⟨0, _⟩ => by show o + f.val = o + f.val; rfl
      | ⟨1, _⟩ => by show r.val = 0 + r.val; omega
      | ⟨2, _⟩ => by show c.val = 0 + c.val; omega)

/-- The input block with its two unit axes dropped. -/
theorem dropUnits_apply {R : ℕ} (v : (⟨5, ![1, 1, 9, R, 512]⟩ : Shape).Idx → α)
    (h : (⟨5, ![1, 1, 9, R, 512]⟩ : Shape).ShapeCasts (T3 9 R 512)) (f : Fin 9) (r : Fin R) (c : Fin 512) :
    shapeCast (T3 9 R 512) v h (ix3 f r c) = v (ix5 (0 : Fin 1) (0 : Fin 1) f r c) := by
  -- both indices sit at row-major position (f · R + r) · 512 + c
  refine shapeCast_apply v h (ix3 f r c) (ix5 (0 : Fin 1) (0 : Fin 1) f r c) ?_
  rw [Shape.rowMajor_val_five, Shape.rowMajor_val_three]
  show ((((0 : ℕ) * 1 + 0) * 9 + f.val) * R + r.val) * 512 + c.val = (f.val * R + r.val) * 512 + c.val
  simp

/-- A result tile with two unit axes added in front, -/
theorem addUnits_apply (A : (T3 8 32 512).Idx → α)
    (h : (T3 8 32 512).ShapeCasts (⟨5, ![1, 1, 8, 32, 512]⟩ : Shape)) (f : Fin 8) (r : Fin 32) (c : Fin 512) :
    shapeCast (⟨5, ![1, 1, 8, 32, 512]⟩ : Shape) A h (ix5 (0 : Fin 1) (0 : Fin 1) f r c) = A (ix3 f r c) := by
  -- both indices sit at row-major position (f · 32 + r) · 512 + c
  refine shapeCast_apply A h (ix5 (0 : Fin 1) (0 : Fin 1) f r c) (ix3 f r c) ?_
  rw [Shape.rowMajor_val_five, Shape.rowMajor_val_three]
  show (f.val * 32 + r.val) * 512 + c.val = ((((0 : ℕ) * 1 + 0) * 8 + f.val) * 32 + r.val) * 512 + c.val
  omega

/-- and the 56-channel tile with one. -/
theorem addUnit_apply (A : (T3 56 32 512).Idx → α)
    (h : (T3 56 32 512).ShapeCasts (⟨4, ![1, 56, 32, 512]⟩ : Shape)) (ch : Fin 56) (r : Fin 32) (c : Fin 512) :
    shapeCast (⟨4, ![1, 56, 32, 512]⟩ : Shape) A h (ix4 (0 : Fin 1) ch r c) = A (ix3 ch r c) := by
  -- both indices sit at row-major position (ch · 32 + r) · 512 + c
  refine shapeCast_apply A h (ix4 (0 : Fin 1) ch r c) (ix3 ch r c) ?_
  rw [Shape.rowMajor_val_four, Shape.rowMajor_val_three]
  show (ch.val * 32 + r.val) * 512 + c.val = (((0 : ℕ) * 56 + ch.val) * 32 + r.val) * 512 + c.val
  omega

/-- Seven bands of eight frames stacked along the frame axis: channel `ch` is frame `ch % 8` of band `ch / 8`. -/
theorem stack7_apply (p0 p1 p2 p3 p4 p5 p6 : (T3 8 32 512).Idx → α)
    (h : Shape.Concatenates [T3 8 32 512, T3 8 32 512, T3 8 32 512, T3 8 32 512, T3 8 32 512, T3 8 32 512, T3 8 32 512] (T3 56 32 512) 0)
    (ch : Fin 56) (r : Fin 32) (c : Fin 512) :
    concatenate (T3 56 32 512) 0 [⟨T3 8 32 512, p0⟩, ⟨T3 8 32 512, p1⟩, ⟨T3 8 32 512, p2⟩, ⟨T3 8 32 512, p3⟩,
        ⟨T3 8 32 512, p4⟩, ⟨T3 8 32 512, p5⟩, ⟨T3 8 32 512, p6⟩] h (ix3 ch r c)
      = (match ch.val / 8 with | 0 => p0 | 1 => p1 | 2 => p2 | 3 => p3 | 4 => p4 | 5 => p5 | _ => p6)
          (ix3 (⟨ch.val % 8, Nat.mod_lt _ (by decide)⟩ : Fin 8) r c) := by
  have hlt := ch.isLt
  -- off the frame axis the piece is read at the same row and column
  have hi : ∀ b : Fin (T3 8 32 512).rank, b.cast (rfl : (T3 8 32 512).rank = (T3 56 32 512).rank) ≠ 0 →
      ((ix3 (⟨ch.val % 8, Nat.mod_lt _ (by decide)⟩ : Fin 8) r c) b).val = ((ix3 ch r c) (b.cast rfl)).val :=
    fun b hb => match b, hb with
      | ⟨0, _⟩, hb => absurd rfl hb
      | ⟨1, _⟩, _ => rfl
      | ⟨2, _⟩, _ => rfl
  let xs : List ((s : Shape) × (s.Idx → α)) := [⟨T3 8 32 512, p0⟩, ⟨T3 8 32 512, p1⟩, ⟨T3 8 32 512, p2⟩,
    ⟨T3 8 32 512, p3⟩, ⟨T3 8 32 512, p4⟩, ⟨T3 8 32 512, p5⟩, ⟨T3 8 32 512, p6⟩]
  -- the band is one of seven; band k starts at channel 8 k
  have hk : ch.val / 8 = 0 ∨ ch.val / 8 = 1 ∨ ch.val / 8 = 2 ∨ ch.val / 8 = 3 ∨ ch.val / 8 = 4 ∨ ch.val / 8 = 5
      ∨ ch.val / 8 = 6 := by omega
  rcases hk with h0 | h0 | h0 | h0 | h0 | h0 | h0
  · rw [h0]
    exact concatenate_apply_piece 0 xs h (ix3 ch r c) 0 (by show 0 < 7; omega) (T3 8 32 512) p0 rfl rfl 0 rfl _ hi
      (by show 0 + ch.val % 8 = ch.val; omega)
  · rw [h0]
    exact concatenate_apply_piece 0 xs h (ix3 ch r c) 1 (by show 1 < 7; omega) (T3 8 32 512) p1 rfl rfl 8 rfl _ hi
      (by show 8 + ch.val % 8 = ch.val; omega)
  · rw [h0]
    exact concatenate_apply_piece 0 xs h (ix3 ch r c) 2 (by show 2 < 7; omega) (T3 8 32 512) p2 rfl rfl 16 rfl _ hi
      (by show 16 + ch.val % 8 = ch.val; omega)
  · rw [h0]
    exact concatenate_apply_piece 0 xs h (ix3 ch r c) 3 (by show 3 < 7; omega) (T3 8 32 512) p3 rfl rfl 24 rfl _ hi
      (by show 24 + ch.val % 8 = ch.val; omega)
  · rw [h0]
    exact concatenate_apply_piece 0 xs h (ix3 ch r c) 4 (by show 4 < 7; omega) (T3 8 32 512) p4 rfl rfl 32 rfl _ hi
      (by show 32 + ch.val % 8 = ch.val; omega)
  · rw [h0]
    exact concatenate_apply_piece 0 xs h (ix3 ch r c) 5 (by show 5 < 7; omega) (T3 8 32 512) p5 rfl rfl 40 rfl _ hi
      (by show 40 + ch.val % 8 = ch.val; omega)
  · rw [h0]
    exact concatenate_apply_piece 0 xs h (ix3 ch r c) 6 (by show 6 < 7; omega) (T3 8 32 512) p6 rfl rfl 48 rfl _ hi
      (by show 48 + ch.val % 8 = ch.val; omega)

end Cert.Haar.Lay

end
-- ==== Proof.KI.PayA.lean ====
/-
  What the first row tile's branch of the body stores, read at an index: from the 32 rows of the slab it loads
  (rows 0‥31: the tile's own rows, the row before row 0 being row 0) the two stored tiles are the transform's
  low-low-low band and its seven other bands at the tile's coordinates.
-/
import proofs.«119886_j28097676051225_1_alg».proof.Proof.Gen.KernelIdeal.Skeleton
import proofs.«119886_j28097676051225_1_alg».proof.Proof.Spec
import proofs.«119886_j28097676051225_1_alg».proof.Proof.Lay
import Idealize.ShloMosaic.Lib.Pipeline.Value
import Idealize.ShloMosaic.Lib.ValueIdx

noncomputable section

namespace Cert.KernelIdeal.PayA

open Cert.KernelIdeal Cert.KernelIdeal.Gen Cert.Haar Cert.Haar.Lay
open Idealize.ShloMosaic Idealize.ShloMosaic.ValueIdx
open Facts₀ Facts

/-! ## The scale, and a scaled sum, difference and value read at an index -/

/-- The body's scale constant is the specification's: the same word, never evaluated. -/
theorem scale_eq : (Scalar.ofBits (F := Ideal) .f32 0x3EB504F3#32 : Ideal .f32) = sW := rfl

/-- `s·(P + A)` at an index, given what `P` and `A` are there. -/
theorem scaleAdd_apply (P A : FVec Ideal S8x32x512 .f32) (p a : EReal) (i : S8x32x512.Idx)
    (hP : P i = p) (hA : A i = a) :
    mulf (broadcast S8x32x512 (Scalar.ofBits (F := Ideal) .f32 0x3EB504F3#32)) (addf P A) i = sW * (p + a) := by
  rw [mulf_apply, addf_apply, broadcast_apply, hP, hA, scale_eq]

/-- `s·(P − A)` at an index. -/
theorem scaleSub_apply (P A : FVec Ideal S8x32x512 .f32) (p a : EReal) (i : S8x32x512.Idx)
    (hP : P i = p) (hA : A i = a) :
    mulf (broadcast S8x32x512 (Scalar.ofBits (F := Ideal) .f32 0x3EB504F3#32)) (subf P A) i = sW * (p - a) := by
  rw [mulf_apply, subf_apply, broadcast_apply, hP, hA, scale_eq]

/-- `s·P` at an index. -/
theorem scale_apply (P : FVec Ideal S8x32x512 .f32) (p : EReal) (i : S8x32x512.Idx) (hP : P i = p) :
    mulf (broadcast S8x32x512 (Scalar.ofBits (F := Ideal) .f32 0x3EB504F3#32)) P i = sW * p := by
  rw [mulf_apply, broadcast_apply, hP, scale_eq]

/-! ## The previous row and the previous column of a tile that reads an array `G` of the specification -/

/-- The previous row (row 0 its own predecessor) of a tile which is `G` at batch `b`: `G` one row up, the
    truncated difference `r − 1` keeping row 0 in place. -/
theorem prevRow_apply (b : ℕ) (A : FVec Ideal S8x32x512 .f32) (G : Arr)
    (hA : ∀ (f : Fin 8) (r : Fin 32) (c : Fin 512), A (ix3 f r c) = G b f.val r.val c.val)
    (h1 : (T3 8 32 512).Slices ![0, 0, 0] (T3 8 1 512)) (h2 : (T3 8 32 512).Slices ![0, 0, 0] (T3 8 31 512))
    (hc : Shape.Concatenates [T3 8 1 512, T3 8 31 512] (T3 8 32 512) 1)
    (f : Fin 8) (r : Fin 32) (c : Fin 512) :
    concatenate (T3 8 32 512) 1 [⟨T3 8 1 512, extractStridedSlice (T3 8 1 512) ![0, 0, 0] A h1⟩,
        ⟨T3 8 31 512, extractStridedSlice (T3 8 31 512) ![0, 0, 0] A h2⟩] hc (ix3 f r c)
      = G b f.val (r.val - 1) c.val :=
  (shiftRow_apply A h1 h2 hc f r c).trans (hA f _ c)

/-- The previous column (column 0 its own predecessor) of such a tile: `G` one column to the left. -/
theorem prevCol_apply (b : ℕ) (A : FVec Ideal S8x32x512 .f32) (G : Arr)
    (hA : ∀ (f : Fin 8) (r : Fin 32) (c : Fin 512), A (ix3 f r c) = G b f.val r.val c.val)
    (h1 : (T3 8 32 512).Slices ![0, 0, 0] (T3 8 32 1)) (h2 : (T3 8 32 512).Slices ![0, 0, 0] (T3 8 32 511))
    (hc : Shape.Concatenates [T3 8 32 1, T3 8 32 511] (T3 8 32 512) 2)
    (f : Fin 8) (r : Fin 32) (c : Fin 512) :
    concatenate (T3 8 32 512) 2 [⟨T3 8 32 1, extractStridedSlice (T3 8 32 1) ![0, 0, 0] A h1⟩,
        ⟨T3 8 32 511, extractStridedSlice (T3 8 32 511) ![0, 0, 0] A h2⟩] hc (ix3 f r c)
      = G b f.val r.val (c.val - 1) :=
  (shiftCol_apply A h1 h2 hc f r c).trans (hA f r _)

/-! ## The payloads of the first row tile, one by one -/

variable (X : Arr) (b : ℕ) (v : Vec Ideal S1x1x9x32x512 .f32)

/-- The loaded block without its unit axes: nine frames of rows 0‥31 of batch `b`. -/
theorem pay5_apply
    (hv : ∀ (f : Fin 9) (r : Fin 32) (c : Fin 512), v (ix5 (0 : Fin 1) (0 : Fin 1) f r c) = X b f.val r.val c.val)
    (f : Fin 9) (r : Fin 32) (c : Fin 512) :
    k0_pay5 (F := Ideal) v (ix3 f r c) = X b f.val r.val c.val := by
  unfold k0_pay5
  exact (dropUnits_apply (R := 32) v _ f r c).trans (hv f r c)

/-- Frame `o + f` of the block (`o` is 0 or 1). -/
theorem frame_apply
    (hv : ∀ (f : Fin 9) (r : Fin 32) (c : Fin 512), v (ix5 (0 : Fin 1) (0 : Fin 1) f r c) = X b f.val r.val c.val)
    (o : ℕ) (ho : o + 8 ≤ 9) (h : (T3 9 32 512).Slices ![o, 0, 0] (T3 8 32 512))
    (f : Fin 8) (r : Fin 32) (c : Fin 512) :
    extractStridedSlice (T3 8 32 512) ![o, 0, 0] (k0_pay5 (F := Ideal) v) h (ix3 f r c) = X b (o + f.val) r.val c.val :=
  (sliceFrames_apply (R := 32) (k0_pay5 (F := Ideal) v) o ho h f r c).trans (pay5_apply X b v hv _ r c)

/-- The low band along the frames. -/
theorem pay6_apply
    (hv : ∀ (f : Fin 9) (r : Fin 32) (c : Fin 512), v (ix5 (0 : Fin 1) (0 : Fin 1) f r c) = X b f.val r.val c.val)
    (f : Fin 8) (r : Fin 32) (c : Fin 512) :
    k0_pay6 (F := Ideal) v (ix3 f r c) = loF sW X b f.val r.val c.val := by
  unfold k0_pay6
  refine (scaleAdd_apply _ _ (X b f.val r.val c.val) (X b (f.val + 1) r.val c.val) _ ?_ ?_)
  · refine (frame_apply X b v hv 0 (by omega) _ f r c).trans ?_
    rw [Nat.zero_add]
  · refine (frame_apply X b v hv 1 (by omega) _ f r c).trans ?_
    rw [Nat.add_comm 1 f.val]

/-- The high band along the frames. -/
theorem pay7_apply
    (hv : ∀ (f : Fin 9) (r : Fin 32) (c : Fin 512), v (ix5 (0 : Fin 1) (0 : Fin 1) f r c) = X b f.val r.val c.val)
    (f : Fin 8) (r : Fin 32) (c : Fin 512) :
    k0_pay7 (F := Ideal) v (ix3 f r c) = hiF sW X b f.val r.val c.val := by
  unfold k0_pay7
  refine (scaleSub_apply _ _ (X b (f.val + 1) r.val c.val) (X b f.val r.val c.val) _ ?_ ?_)
  · refine (frame_apply X b v hv 1 (by omega) _ f r c).trans ?_
    rw [Nat.add_comm 1 f.val]
  · refine (frame_apply X b v hv 0 (by omega) _ f r c).trans ?_
    rw [Nat.zero_add]

/-- The frames' low band one row up. -/
theorem pay8_apply
    (hv : ∀ (f : Fin 9) (r : Fin 32) (c : Fin 512), v (ix5 (0 : Fin 1) (0 : Fin 1) f r c) = X b f.val r.val c.val)
    (f : Fin 8) (r : Fin 32) (c : Fin 512) :
    k0_pay8 (F := Ideal) v (ix3 f r c) = loF sW X b f.val (r.val - 1) c.val := by
  unfold k0_pay8
  exact prevRow_apply b (k0_pay6 (F := Ideal) v) (loF sW X) (pay6_apply X b v hv) _ _ _ f r c

/-- The frames' high band one row up. -/
theorem pay9_apply
    (hv : ∀ (f : Fin 9) (r : Fin 32) (c : Fin 512), v (ix5 (0 : Fin 1) (0 : Fin 1) f r c) = X b f.val r.val c.val)
    (f : Fin 8) (r : Fin 32) (c : Fin 512) :
    k0_pay9 (F := Ideal) v (ix3 f r c) = hiF sW X b f.val (r.val - 1) c.val := by
  unfold k0_pay9
  exact prevRow_apply b (k0_pay7 (F := Ideal) v) (hiF sW X) (pay7_apply X b v hv) _ _ _ f r c

/-- Low along the rows of low along the frames. -/
theorem pay10_apply
    (hv : ∀ (f : Fin 9) (r : Fin 32) (c : Fin 512), v (ix5 (0 : Fin 1) (0 : Fin 1) f r c) = X b f.val r.val c.val)
    (f : Fin 8) (r : Fin 32) (c : Fin 512) :
    k0_pay10 (F := Ideal) v (ix3 f r c) = loR sW (loF sW X) b f.val r.val c.val := by
  unfold k0_pay10
  exact scaleAdd_apply _ _ _ _ _ (pay8_apply X b v hv f r c) (pay6_apply X b v hv f r c)

/-- High along the rows of low along the frames. -/
theorem pay11_apply
    (hv : ∀ (f : Fin 9) (r : Fin 32) (c : Fin 512), v (ix5 (0 : Fin 1) (0 : Fin 1) f r c) = X b f.val r.val c.val)
    (f : Fin 8) (r : Fin 32) (c : Fin 512) :
    k0_pay11 (F := Ideal) v (ix3 f r c) = hiR sW (loF sW X) b f.val r.val c.val := by
  unfold k0_pay11
  exact scaleSub_apply _ _ _ _ _ (pay6_apply X b v hv f r c) (pay8_apply X b v hv f r c)

/-- Low along the rows of high along the frames. -/
theorem pay12_apply
    (hv : ∀ (f : Fin 9) (r : Fin 32) (c : Fin 512), v (ix5 (0 : Fin 1) (0 : Fin 1) f r c) = X b f.val r.val c.val)
    (f : Fin 8) (r : Fin 32) (c : Fin 512) :
    k0_pay12 (F := Ideal) v (ix3 f r c) = loR sW (hiF sW X) b f.val r.val c.val := by
  unfold k0_pay12
  exact scaleAdd_apply _ _ _ _ _ (pay9_apply X b v hv f r c) (pay7_apply X b v hv f r c)

/-- High along the rows of high along the frames. -/
theorem pay13_apply
    (hv : ∀ (f : Fin 9) (r : Fin 32) (c : Fin 512), v (ix5 (0 : Fin 1) (0 : Fin 1) f r c) = X b f.val r.val c.val)
    (f : Fin 8) (r : Fin 32) (c : Fin 512) :
    k0_pay13 (F := Ideal) v (ix3 f r c) = hiR sW (hiF sW X) b f.val r.val c.val := by
  unfold k0_pay13
  exact scaleSub_apply _ _ _ _ _ (pay7_apply X b v hv f r c) (pay9_apply X b v hv f r c)

/-- The low-low pair one column to the left. -/
theorem pay14_apply
    (hv : ∀ (f : Fin 9) (r : Fin 32) (c : Fin 512), v (ix5 (0 : Fin 1) (0 : Fin 1) f r c) = X b f.val r.val c.val)
    (f : Fin 8) (r : Fin 32) (c : Fin 512) :
    k0_pay14 (F := Ideal) v (ix3 f r c) = loR sW (loF sW X) b f.val r.val (c.val - 1) := by
  unfold k0_pay14
  exact prevCol_apply b (k0_pay10 (F := Ideal) v) (loR sW (loF sW X)) (pay10_apply X b v hv) _ _ _ f r c

/-- The low-low-low band. -/
theorem pay15_apply
    (hv : ∀ (f : Fin 9) (r : Fin 32) (c : Fin 512), v (ix5 (0 : Fin 1) (0 : Fin 1) f r c) = X b f.val r.val c.val)
    (f : Fin 8) (r : Fin 32) (c : Fin 512) :
    k0_pay15 (F := Ideal) v (ix3 f r c) = lll sW X b f.val r.val c.val := by
  unfold k0_pay15
  exact scaleAdd_apply _ _ _ _ _ (pay14_apply X b v hv f r c) (pay10_apply X b v hv f r c)

/-- Band 0: high along the columns of the low-low pair. -/
theorem pay16_apply
    (hv : ∀ (f : Fin 9) (r : Fin 32) (c : Fin 512), v (ix5 (0 : Fin 1) (0 : Fin 1) f r c) = X b f.val r.val c.val)
    (f : Fin 8) (r : Fin 32) (c : Fin 512) :
    k0_pay16 (F := Ideal) v (ix3 f r c) = band sW X 0 b f.val r.val c.val := by
  unfold k0_pay16
  exact scaleSub_apply _ _ _ _ _ (pay10_apply X b v hv f r c) (pay14_apply X b v hv f r c)

/-- The low-high pair (frames low, rows high) one column to the left. -/
theorem pay17_apply
    (hv : ∀ (f : Fin 9) (r : Fin 32) (c : Fin 512), v (ix5 (0 : Fin 1) (0 : Fin 1) f r c) = X b f.val r.val c.val)
    (f : Fin 8) (r : Fin 32) (c : Fin 512) :
    k0_pay17 (F := Ideal) v (ix3 f r c) = hiR sW (loF sW X) b f.val r.val (c.val - 1) := by
  unfold k0_pay17
  exact prevCol_apply b (k0_pay11 (F := Ideal) v) (hiR sW (loF sW X)) (pay11_apply X b v hv) _ _ _ f r c

/-- Band 1: low along the columns of the low-high pair. -/
theorem pay18_apply
    (hv : ∀ (f : Fin 9) (r : Fin 32) (c : Fin 512), v (ix5 (0 : Fin 1) (0 : Fin 1) f r c) = X b f.val r.val c.val)
    (f : Fin 8) (r : Fin 32) (c : Fin 512) :
    k0_pay18 (F := Ideal) v (ix3 f r c) = band sW X 1 b f.val r.val c.val := by
  unfold k0_pay18
  exact scaleAdd_apply _ _ _ _ _ (pay17_apply X b v hv f r c) (pay11_apply X b v hv f r c)

/-- The difference that band 2 scales: the low-high pair minus itself one column to the left. -/
theorem pay19_apply
    (hv : ∀ (f : Fin 9) (r : Fin 32) (c : Fin 512), v (ix5 (0 : Fin 1) (0 : Fin 1) f r c) = X b f.val r.val c.val)
    (f : Fin 8) (r : Fin 32) (c : Fin 512) :
    k0_pay19 (F := Ideal) v (ix3 f r c)
      = hiR sW (loF sW X) b f.val r.val c.val - hiR sW (loF sW X) b f.val r.val (c.val - 1) := by
  unfold k0_pay19
  show k0_pay11 (F := Ideal) v (ix3 f r c) - k0_pay17 (F := Ideal) v (ix3 f r c) = _
  rw [pay11_apply X b v hv f r c, pay17_apply X b v hv f r c]

/-! ## The two stored tiles -/

/-- The low-low-low tile. `hv`: the loaded rows are rows 0‥31 of batch `b`. -/
theorem lll_apply
    (hv : ∀ (f : Fin 9) (r : Fin 32) (c : Fin 512), v (ix5 (0 : Fin 1) (0 : Fin 1) f r c) = X b f.val r.val c.val)
    (f : Fin 8) (r : Fin 32) (c : Fin 512) :
    k0_pay1 (F := Ideal) (k0_pay15 (F := Ideal) v) (ix5 (0 : Fin 1) (0 : Fin 1) f r c) = lll sW X b f.val r.val c.val := by
  unfold k0_pay1
  exact (addUnits_apply (k0_pay15 (F := Ideal) v) _ f r c).trans (pay15_apply X b v hv f r c)

/-- The seven other bands' tile. -/
theorem high_apply
    (hv : ∀ (f : Fin 9) (r : Fin 32) (c : Fin 512), v (ix5 (0 : Fin 1) (0 : Fin 1) f r c) = X b f.val r.val c.val)
    (ch : Fin 56) (r : Fin 32) (c : Fin 512) :
    k0_pay2 (F := Ideal) (k0_pay12 (F := Ideal) v) (k0_pay13 (F := Ideal) v) (k0_pay16 (F := Ideal) v) (k0_pay18 (F := Ideal) v)
        (k0_pay19 (F := Ideal) v) (ix4 (0 : Fin 1) ch r c)
      = high sW X b ch.val r.val c.val := by
  unfold k0_pay2
  -- the unit axis off, then the stack of seven bands read at channel `ch`: frame `ch % 8` of band `ch / 8`
  refine (addUnit_apply _ _ ch r c).trans ?_
  refine (stack7_apply _ _ _ _ _ _ _ _ ch r c).trans ?_
  have hval : high sW X b ch.val r.val c.val
      = band sW X (ch.val / 8) b (⟨ch.val % 8, Nat.mod_lt _ (by decide)⟩ : Fin 8).val r.val c.val := rfl
  rw [hval]
  generalize (⟨ch.val % 8, Nat.mod_lt _ (by decide)⟩ : Fin 8) = fr
  generalize ch.val / 8 = q
  -- band by band; the two lists agree on every band number, the last entry standing for all numbers from 6 on
  match q with
  | 0 => exact pay16_apply X b v hv fr r c
  | 1 => exact pay18_apply X b v hv fr r c
  | 2 => exact scale_apply _ _ _ (pay19_apply X b v hv fr r c)
  | 3 =>
    exact scaleAdd_apply _ _ _ _ _
      (prevCol_apply b (k0_pay12 (F := Ideal) v) (loR sW (hiF sW X)) (pay12_apply X b v hv) _ _ _ fr r c)
      (pay12_apply X b v hv fr r c)
  | 4 =>
    exact scaleSub_apply _ _ _ _ _ (pay12_apply X b v hv fr r c)
      (prevCol_apply b (k0_pay12 (F := Ideal) v) (loR sW (hiF sW X)) (pay12_apply X b v hv) _ _ _ fr r c)
  | 5 =>
    exact scaleAdd_apply _ _ _ _ _
      (prevCol_apply b (k0_pay13 (F := Ideal) v) (hiR sW (hiF sW X)) (pay13_apply X b v hv) _ _ _ fr r c)
      (pay13_apply X b v hv fr r c)
  | (n + 6) =>
    exact scaleSub_apply _ _ _ _ _ (pay13_apply X b v hv fr r c)
      (prevCol_apply b (k0_pay13 (F := Ideal) v) (hiR sW (hiF sW X)) (pay13_apply X b v hv) _ _ _ fr r c)

end Cert.KernelIdeal.PayA

end
-- ==== Proof.KI.PayB.lean ====
/-
  What a later row tile's branch of the body stores, read at an index: from the 40 rows of the slab it loads (the
  8 rows before the tile and the tile's 32) the two stored tiles are the transform's low-low-low band and its seven
  other bands at the tile's coordinates. Row `q` of the load is row `R0 + q` of the slab, so the tile's row `r` is
  row `R0 + 8 + r` and the row before it row `R0 + 7 + r`.
-/
import proofs.«119886_j28097676051225_1_alg».proof.Proof.Gen.KernelIdeal.Skeleton
import proofs.«119886_j28097676051225_1_alg».proof.Proof.Spec
import proofs.«119886_j28097676051225_1_alg».proof.Proof.Lay
import Idealize.ShloMosaic.Lib.Pipeline.Value
import Idealize.ShloMosaic.Lib.ValueIdx

noncomputable section

namespace Cert.KernelIdeal.PayB

open Cert.KernelIdeal Cert.KernelIdeal.Gen Cert.Haar Cert.Haar.Lay
open Idealize.ShloMosaic Idealize.ShloMosaic.ValueIdx
open Facts₀ Facts

/-! ## The scale word times an array, read at an index -/

/-- The scale times a sum of two arrays, entry by entry. -/
theorem scaleAdd_apply {S : Shape} (A B : FVec Ideal S .f32) (i : S.Idx) :
    mulf (broadcast S (Scalar.ofBits (F := Ideal) .f32 0x3EB504F3#32)) (addf A B) i = sW * (A i + B i) := rfl

/-- The scale times a difference of two arrays, entry by entry. -/
theorem scaleSub_apply {S : Shape} (A B : FVec Ideal S .f32) (i : S.Idx) :
    mulf (broadcast S (Scalar.ofBits (F := Ideal) .f32 0x3EB504F3#32)) (subf A B) i = sW * (A i - B i) := rfl

/-- The scale times an array, entry by entry. -/
theorem scale_apply {S : Shape} (A : FVec Ideal S .f32) (i : S.Idx) :
    mulf (broadcast S (Scalar.ofBits (F := Ideal) .f32 0x3EB504F3#32)) A i = sW * A i := rfl

variable (X : Arr) (b R0 : ℕ) (v : Vec Ideal S1x1x9x40x512 .f32)

section Steps

variable (hv : ∀ (f : Fin 9) (q : Fin 40) (c : Fin 512), v (ix5 (0 : Fin 1) (0 : Fin 1) f q c) = X b f.val (R0 + q.val) c.val)
include hv

/-! ## The forty loaded rows: the frame pair -/

/-- The loaded block without its unit axes: its row `q` is row `R0 + q` of the slab. -/
theorem pay20_apply (f : Fin 9) (q : Fin 40) (c : Fin 512) :
    k0_pay20 (F := Ideal) v (ix3 f q c) = X b f.val (R0 + q.val) c.val := by
  unfold k0_pay20
  exact (dropUnits_apply (R := 40) v _ f q c).trans (hv f q c)

/-- The low band along the frames on the forty rows. -/
theorem pay21_apply (f : Fin 8) (q : Fin 40) (c : Fin 512) :
    k0_pay21 (F := Ideal) v (ix3 f q c) = loF sW X b f.val (R0 + q.val) c.val := by
  unfold k0_pay21
  refine (scaleAdd_apply _ _ _).trans ?_
  rw [sliceFrames_apply (R := 40) (k0_pay20 (F := Ideal) v) 0 (by omega) _ f q c,
    sliceFrames_apply (R := 40) (k0_pay20 (F := Ideal) v) 1 (by omega) _ f q c,
    pay20_apply X b R0 v hv, pay20_apply X b R0 v hv]
  show sW * (X b (0 + f.val) (R0 + q.val) c.val + X b (1 + f.val) (R0 + q.val) c.val) = _
  rw [Nat.zero_add, Nat.add_comm 1 f.val]
  rfl

/-- The high band along the frames on the forty rows. -/
theorem pay22_apply (f : Fin 8) (q : Fin 40) (c : Fin 512) :
    k0_pay22 (F := Ideal) v (ix3 f q c) = hiF sW X b f.val (R0 + q.val) c.val := by
  unfold k0_pay22
  refine (scaleSub_apply _ _ _).trans ?_
  rw [sliceFrames_apply (R := 40) (k0_pay20 (F := Ideal) v) 1 (by omega) _ f q c,
    sliceFrames_apply (R := 40) (k0_pay20 (F := Ideal) v) 0 (by omega) _ f q c,
    pay20_apply X b R0 v hv, pay20_apply X b R0 v hv]
  show sW * (X b (1 + f.val) (R0 + q.val) c.val - X b (0 + f.val) (R0 + q.val) c.val) = _
  rw [Nat.zero_add, Nat.add_comm 1 f.val]
  rfl

/-! ## The tile's rows and the rows before them -/

/-- The frames' low band on the tile: the tile's row `r` is row `R0 + 8 + r` of the slab. -/
theorem pay23_apply (f : Fin 8) (r : Fin 32) (c : Fin 512) :
    k0_pay23 (F := Ideal) v (ix3 f r c) = loF sW X b f.val (R0 + 8 + r.val) c.val := by
  unfold k0_pay23
  refine (sliceRows_apply (k0_pay21 (F := Ideal) v) 8 (by omega) _ f r c).trans ?_
  refine (pay21_apply X b R0 v hv f ⟨8 + r.val, by omega⟩ c).trans ?_
  show loF sW X b f.val (R0 + (8 + r.val)) c.val = _
  rw [Nat.add_assoc]

/-- The frames' low band one row earlier: row `R0 + 7 + r`, the row before `R0 + 8 + r`. -/
theorem pay24_apply (f : Fin 8) (r : Fin 32) (c : Fin 512) :
    k0_pay24 (F := Ideal) v (ix3 f r c) = loF sW X b f.val (R0 + 8 + r.val - 1) c.val := by
  unfold k0_pay24
  refine (sliceRows_apply (k0_pay21 (F := Ideal) v) 7 (by omega) _ f r c).trans ?_
  refine (pay21_apply X b R0 v hv f ⟨7 + r.val, by omega⟩ c).trans ?_
  show loF sW X b f.val (R0 + (7 + r.val)) c.val = _
  have e : R0 + (7 + r.val) = R0 + 8 + r.val - 1 := by omega
  rw [e]

/-- The frames' high band on the tile. -/
theorem pay25_apply (f : Fin 8) (r : Fin 32) (c : Fin 512) :
    k0_pay25 (F := Ideal) v (ix3 f r c) = hiF sW X b f.val (R0 + 8 + r.val) c.val := by
  unfold k0_pay25
  refine (sliceRows_apply (k0_pay22 (F := Ideal) v) 8 (by omega) _ f r c).trans ?_
  refine (pay22_apply X b R0 v hv f ⟨8 + r.val, by omega⟩ c).trans ?_
  show hiF sW X b f.val (R0 + (8 + r.val)) c.val = _
  rw [Nat.add_assoc]

/-- The frames' high band one row earlier. -/
theorem pay26_apply (f : Fin 8) (r : Fin 32) (c : Fin 512) :
    k0_pay26 (F := Ideal) v (ix3 f r c) = hiF sW X b f.val (R0 + 8 + r.val - 1) c.val := by
  unfold k0_pay26
  refine (sliceRows_apply (k0_pay22 (F := Ideal) v) 7 (by omega) _ f r c).trans ?_
  refine (pay22_apply X b R0 v hv f ⟨7 + r.val, by omega⟩ c).trans ?_
  show hiF sW X b f.val (R0 + (7 + r.val)) c.val = _
  have e : R0 + (7 + r.val) = R0 + 8 + r.val - 1 := by omega
  rw [e]

/-! ## The row pair -/

/-- The low band along the rows of the frames' low band, at the tile's rows. -/
theorem pay27_apply (f : Fin 8) (r : Fin 32) (c : Fin 512) :
    k0_pay27 (F := Ideal) v (ix3 f r c) = loR sW (loF sW X) b f.val (R0 + 8 + r.val) c.val := by
  unfold k0_pay27
  refine (scaleAdd_apply _ _ _).trans ?_
  rw [pay24_apply X b R0 v hv, pay23_apply X b R0 v hv]
  rfl

/-- The high band along the rows of the frames' low band. -/
theorem pay28_apply (f : Fin 8) (r : Fin 32) (c : Fin 512) :
    k0_pay28 (F := Ideal) v (ix3 f r c) = hiR sW (loF sW X) b f.val (R0 + 8 + r.val) c.val := by
  unfold k0_pay28
  refine (scaleSub_apply _ _ _).trans ?_
  rw [pay23_apply X b R0 v hv, pay24_apply X b R0 v hv]
  rfl

/-- The low band along the rows of the frames' high band. -/
theorem pay29_apply (f : Fin 8) (r : Fin 32) (c : Fin 512) :
    k0_pay29 (F := Ideal) v (ix3 f r c) = loR sW (hiF sW X) b f.val (R0 + 8 + r.val) c.val := by
  unfold k0_pay29
  refine (scaleAdd_apply _ _ _).trans ?_
  rw [pay26_apply X b R0 v hv, pay25_apply X b R0 v hv]
  rfl

/-- The high band along the rows of the frames' high band. -/
theorem pay30_apply (f : Fin 8) (r : Fin 32) (c : Fin 512) :
    k0_pay30 (F := Ideal) v (ix3 f r c) = hiR sW (hiF sW X) b f.val (R0 + 8 + r.val) c.val := by
  unfold k0_pay30
  refine (scaleSub_apply _ _ _).trans ?_
  rw [pay25_apply X b R0 v hv, pay26_apply X b R0 v hv]
  rfl

/-! ## The column pair -/

/-- The previous column of the low-low array, column 0 its own predecessor. -/
theorem pay31_apply (f : Fin 8) (r : Fin 32) (c : Fin 512) :
    k0_pay31 (F := Ideal) v (ix3 f r c) = loR sW (loF sW X) b f.val (R0 + 8 + r.val) (c.val - 1) := by
  unfold k0_pay31
  refine (shiftCol_apply (k0_pay27 (F := Ideal) v) _ _ _ f r c).trans ?_
  exact pay27_apply X b R0 v hv f r ⟨c.val - 1, by omega⟩

/-- The low-low-low band at the tile's coordinates. -/
theorem pay32_apply (f : Fin 8) (r : Fin 32) (c : Fin 512) :
    k0_pay32 (F := Ideal) v (ix3 f r c) = lll sW X b f.val (R0 + 8 + r.val) c.val := by
  unfold k0_pay32
  refine (scaleAdd_apply _ _ _).trans ?_
  rw [pay31_apply X b R0 v hv, pay27_apply X b R0 v hv]
  rfl

/-- The first of the seven other bands: low, low, high. -/
theorem pay33_apply (f : Fin 8) (r : Fin 32) (c : Fin 512) :
    k0_pay33 (F := Ideal) v (ix3 f r c) = band sW X 0 b f.val (R0 + 8 + r.val) c.val := by
  unfold k0_pay33
  refine (scaleSub_apply _ _ _).trans ?_
  rw [pay27_apply X b R0 v hv, pay31_apply X b R0 v hv]
  rfl

/-- The previous column of the low-high array. -/
theorem pay34_apply (f : Fin 8) (r : Fin 32) (c : Fin 512) :
    k0_pay34 (F := Ideal) v (ix3 f r c) = hiR sW (loF sW X) b f.val (R0 + 8 + r.val) (c.val - 1) := by
  unfold k0_pay34
  refine (shiftCol_apply (k0_pay28 (F := Ideal) v) _ _ _ f r c).trans ?_
  exact pay28_apply X b R0 v hv f r ⟨c.val - 1, by omega⟩

/-- The sum the second band scales: the previous column of the low-high array plus this one. -/
theorem pay35_apply (f : Fin 8) (r : Fin 32) (c : Fin 512) :
    k0_pay35 (F := Ideal) v (ix3 f r c)
      = hiR sW (loF sW X) b f.val (R0 + 8 + r.val) (c.val - 1) + hiR sW (loF sW X) b f.val (R0 + 8 + r.val) c.val := by
  unfold k0_pay35
  refine (addf_apply _ _ _).trans ?_
  rw [pay34_apply X b R0 v hv, pay28_apply X b R0 v hv]

end Steps

/-! ## The column pair of a tile, as the body spells it -/

/-- The low band along the columns of a tile that reads an array `A` at the tile's coordinates:
    the scale times (the previous column plus the column). -/
theorem loC_read (P : FVec Ideal S8x32x512 .f32) (A : Arr)
    (hP : ∀ (f : Fin 8) (r : Fin 32) (c : Fin 512), P (ix3 f r c) = A b f.val (R0 + 8 + r.val) c.val)
    (h1 : S8x32x512.Slices ![0, 0, 0] S8x32x1) (h2 : S8x32x512.Slices ![0, 0, 0] S8x32x511)
    (hc : Shape.Concatenates [S8x32x1, S8x32x511] S8x32x512 2) (f : Fin 8) (r : Fin 32) (c : Fin 512) :
    mulf (broadcast S8x32x512 (Scalar.ofBits (F := Ideal) .f32 0x3EB504F3#32))
        (addf (concatenate S8x32x512 2 [⟨S8x32x1, extractStridedSlice S8x32x1 ![0, 0, 0] P h1⟩,
          ⟨S8x32x511, extractStridedSlice S8x32x511 ![0, 0, 0] P h2⟩] hc) P) (ix3 f r c)
      = loC sW A b f.val (R0 + 8 + r.val) c.val := by
  refine (scaleAdd_apply _ _ _).trans ?_
  rw [shiftCol_apply P h1 h2 hc f r c, hP, hP]
  rfl

/-- The high band along the columns of such a tile: the scale times (the column minus the previous one). -/
theorem hiC_read (P : FVec Ideal S8x32x512 .f32) (A : Arr)
    (hP : ∀ (f : Fin 8) (r : Fin 32) (c : Fin 512), P (ix3 f r c) = A b f.val (R0 + 8 + r.val) c.val)
    (h1 : S8x32x512.Slices ![0, 0, 0] S8x32x1) (h2 : S8x32x512.Slices ![0, 0, 0] S8x32x511)
    (hc : Shape.Concatenates [S8x32x1, S8x32x511] S8x32x512 2) (f : Fin 8) (r : Fin 32) (c : Fin 512) :
    mulf (broadcast S8x32x512 (Scalar.ofBits (F := Ideal) .f32 0x3EB504F3#32))
        (subf P (concatenate S8x32x512 2 [⟨S8x32x1, extractStridedSlice S8x32x1 ![0, 0, 0] P h1⟩,
          ⟨S8x32x511, extractStridedSlice S8x32x511 ![0, 0, 0] P h2⟩] hc)) (ix3 f r c)
      = hiC sW A b f.val (R0 + 8 + r.val) c.val := by
  refine (scaleSub_apply _ _ _).trans ?_
  rw [shiftCol_apply P h1 h2 hc f r c, hP, hP]
  rfl

/-- The low-low-low tile. `hv`: the loaded rows are rows `R0 ‥ R0 + 39` of batch `b`. -/
theorem lll_apply
    (hv : ∀ (f : Fin 9) (q : Fin 40) (c : Fin 512), v (ix5 (0 : Fin 1) (0 : Fin 1) f q c) = X b f.val (R0 + q.val) c.val)
    (f : Fin 8) (r : Fin 32) (c : Fin 512) :
    k0_pay3 (F := Ideal) (k0_pay32 (F := Ideal) v) (ix5 (0 : Fin 1) (0 : Fin 1) f r c)
      = lll sW X b f.val (R0 + 8 + r.val) c.val := by
  unfold k0_pay3
  refine (addUnits_apply _ _ f r c).trans ?_
  exact pay32_apply X b R0 v hv f r c

/-- The seven other bands' tile. -/
theorem high_apply
    (hv : ∀ (f : Fin 9) (q : Fin 40) (c : Fin 512), v (ix5 (0 : Fin 1) (0 : Fin 1) f q c) = X b f.val (R0 + q.val) c.val)
    (ch : Fin 56) (r : Fin 32) (c : Fin 512) :
    k0_pay4 (F := Ideal) (k0_pay28 (F := Ideal) v) (k0_pay29 (F := Ideal) v) (k0_pay30 (F := Ideal) v) (k0_pay33 (F := Ideal) v)
        (k0_pay34 (F := Ideal) v) (k0_pay35 (F := Ideal) v) (Scalar.ofBits .f32 0x3EB504F3#32) (ix4 (0 : Fin 1) ch r c)
      = high sW X b ch.val (R0 + 8 + r.val) c.val := by
  unfold k0_pay4
  refine (addUnit_apply _ _ ch r c).trans ?_
  refine (stack7_apply _ _ _ _ _ _ _ _ ch r c).trans ?_
  show _ = band sW X (ch.val / 8) b (ch.val % 8) (R0 + 8 + r.val) c.val
  have hk : ch.val / 8 < 7 := by have := ch.isLt; omega
  generalize ch.val / 8 = k at hk ⊢
  match k, hk with
  | 0, _ => exact pay33_apply X b R0 v hv ⟨ch.val % 8, Nat.mod_lt _ (by decide)⟩ r c
  | 1, _ =>
    refine (scale_apply _ _).trans ?_
    rw [pay35_apply X b R0 v hv]
    rfl
  | 2, _ =>
    refine (scaleSub_apply _ _ _).trans ?_
    rw [pay28_apply X b R0 v hv, pay34_apply X b R0 v hv]
    rfl
  | 3, _ =>
    exact loC_read b R0 (k0_pay29 (F := Ideal) v) (loR sW (hiF sW X)) (pay29_apply X b R0 v hv) _ _ _
      ⟨ch.val % 8, Nat.mod_lt _ (by decide)⟩ r c
  | 4, _ =>
    exact hiC_read b R0 (k0_pay29 (F := Ideal) v) (loR sW (hiF sW X)) (pay29_apply X b R0 v hv) _ _ _
      ⟨ch.val % 8, Nat.mod_lt _ (by decide)⟩ r c
  | 5, _ =>
    exact loC_read b R0 (k0_pay30 (F := Ideal) v) (hiR sW (hiF sW X)) (pay30_apply X b R0 v hv) _ _ _
      ⟨ch.val % 8, Nat.mod_lt _ (by decide)⟩ r c
  | 6, _ =>
    exact hiC_read b R0 (k0_pay30 (F := Ideal) v) (hiR sW (hiF sW X)) (pay30_apply X b R0 v hv) _ _ _
      ⟨ch.val % 8, Nat.mod_lt _ (by decide)⟩ r c
  | k + 7, h => exact absurd h (by omega)

end Cert.KernelIdeal.PayB

end
-- ==== Proof.KI.Cover.lean ====
/-
  The two results' tiles cover the results: every index of a result array lies in the block that some grid point
  writes back. The first result's block at point (batch, row tile) is that batch's rows 32·tile ‥ 32·tile + 31, all eight
  frames and all columns; the second's the same rows of all 56 channels. An index (b, _, f, r, c) is in the block of the
  point (b, r / 32).
-/
import proofs.«119886_j28097676051225_1_alg».proof.Proof.KI.Body
import Idealize.ShloMosaic.Lib.Pipeline.Value

set_option maxRecDepth 16384

noncomputable section

namespace Cert.KernelIdeal.Cover

open Cert.KernelIdeal Cert.KernelIdeal.Gen Cert.KernelIdeal.Hand
open Idealize.ShloMosaic Idealize.ShloMosaic.TcCoe Idealize.SL.Sem
open Idealize.ShloMosaic.Pipeline (Dat)

/-! ## The first result: tiles of 32 rows of a batch's eight frames -/

/-- An index of the first result lies in the tile of point `t` iff on every axis its coordinate lies in the tile's range:
    from the tile's index times the tile's extent, for the tile's extent. -/
theorem mem_tile1 (t : Fin cfg0.N) (i : S4x1x8x512x512.Idx) :
    i ∈ ((cfg0.win 1).blk t).view.set ↔ ∀ a : Fin 5, win0_1.index t a * S1x1x8x32x512.size a ≤ (i a).val
      ∧ (i a).val < win0_1.index t a * S1x1x8x32x512.size a + S1x1x8x32x512.size a := by
  show i ∈ ((View.whole main_v0_0).slice (win0_1.rect t)).set ↔ _
  rw [View.set_slice_whole, Rect.mem_set_unit]
  exact Iff.rfl

/-- Every (batch, row tile) pair is the first result's tile index at some grid point (decided over the 64 points). -/
theorem tile_onto1 : ∀ (b : Fin 4) (q : Fin 16), ∃ t : Fin cfg0.N, win0_1.index t = ![b.val, 0, 0, q.val, 0] :=
  (by decide +kernel : ∀ (b : Fin 4) (q : Fin 16), ∃ t : Fin grid0.N, win0_1.index t = ![b.val, 0, 0, q.val, 0])

/-- The index (b, 0, f, r, c) of the first result lies in the tile of the point of batch b and row tile r / 32. -/
theorem covered1 (i : S4x1x8x512x512.Idx) :
    ∃ t : Fin cfg0.N, (cfg0.win 1).flush t = true ∧ i ∈ ((cfg0.win 1).blk t).view.set := by
  have h0 : (i 0).val < 4 := (i 0).isLt
  have h1 : (i 1).val < 1 := (i 1).isLt
  have h2 : (i 2).val < 8 := (i 2).isLt
  have h3 : (i 3).val < 512 := (i 3).isLt
  have h4 : (i 4).val < 512 := (i 4).isLt
  obtain ⟨t, ht⟩ := tile_onto1 ⟨(i 0).val, h0⟩ ⟨(i 3).val / 32, by omega⟩
  have q0 : win0_1.index t (0 : Fin 5) = (i 0).val := congrFun ht 0
  have q1 : win0_1.index t (1 : Fin 5) = 0 := congrFun ht 1
  have q2 : win0_1.index t (2 : Fin 5) = 0 := congrFun ht 2
  have q3 : win0_1.index t (3 : Fin 5) = (i 3).val / 32 := congrFun ht 3
  have q4 : win0_1.index t (4 : Fin 5) = 0 := congrFun ht 4
  refine ⟨t, flush0_1 t, (mem_tile1 t i).2 fun a => ?_⟩
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 1 ≤ (i 1).val ∧ (i 1).val < win0_1.index t (1 : Fin 5) * 1 + 1; omega
  | ⟨2, _⟩ => show win0_1.index t (2 : Fin 5) * 8 ≤ (i 2).val ∧ (i 2).val < win0_1.index t (2 : Fin 5) * 8 + 8; omega
  | ⟨3, _⟩ => show win0_1.index t (3 : Fin 5) * 32 ≤ (i 3).val ∧ (i 3).val < win0_1.index t (3 : Fin 5) * 32 + 32; omega
  | ⟨4, _⟩ => show win0_1.index t (4 : Fin 5) * 512 ≤ (i 4).val ∧ (i 4).val < win0_1.index t (4 : Fin 5) * 512 + 512; omega

/-- Every index of the first result is in some written-back block. -/
theorem cover_w1 (c : Dev nD) :
    ∀ i : ((cfg0.win 1).arr.view.loc ((c.tc : Thread nD τ))).2.ty.Idx,
      ∃ t : Fin cfg0.N, (cfg0.win 1).flush t = true ∧ i ∈ ((cfg0.win 1).blk t).view.set := by
  intro i
  exact covered1 i

/-! ## The second result: tiles of 32 rows of a batch's 56 channels -/

/-- An index of the second result lies in the tile of point `t` iff on every axis its coordinate lies in the tile's range. -/
theorem mem_tile2 (t : Fin cfg0.N) (i : S4x56x512x512.Idx) :
    i ∈ ((cfg0.win 2).blk t).view.set ↔ ∀ a : Fin 4, win0_2.index t a * S1x56x32x512.size a ≤ (i a).val
      ∧ (i a).val < win0_2.index t a * S1x56x32x512.size a + S1x56x32x512.size a := by
  show i ∈ ((View.whole main_v0_1).slice (win0_2.rect t)).set ↔ _
  rw [View.set_slice_whole, Rect.mem_set_unit]
  exact Iff.rfl

/-- Every (batch, row tile) pair is the second result's tile index at some grid point (decided over the 64 points). -/
theorem tile_onto2 : ∀ (b : Fin 4) (q : Fin 16), ∃ t : Fin cfg0.N, win0_2.index t = ![b.val, 0, q.val, 0] :=
  (by decide +kernel : ∀ (b : Fin 4) (q : Fin 16), ∃ t : Fin grid0.N, win0_2.index t = ![b.val, 0, q.val, 0])

/-- The index (b, ch, r, c) of the second result lies in the tile of the point of batch b and row tile r / 32. -/
theorem covered2 (i : S4x56x512x512.Idx) :
    ∃ t : Fin cfg0.N, (cfg0.win 2).flush t = true ∧ i ∈ ((cfg0.win 2).blk t).view.set := by
  have h0 : (i 0).val < 4 := (i 0).isLt
  have h1 : (i 1).val < 56 := (i 1).isLt
  have h2 : (i 2).val < 512 := (i 2).isLt
  have h3 : (i 3).val < 512 := (i 3).isLt
  obtain ⟨t, ht⟩ := tile_onto2 ⟨(i 0).val, h0⟩ ⟨(i 2).val / 32, by omega⟩
  have q0 : win0_2.index t (0 : Fin 4) = (i 0).val := congrFun ht 0
  have q1 : win0_2.index t (1 : Fin 4) = 0 := congrFun ht 1
  have q2 : win0_2.index t (2 : Fin 4) = (i 2).val / 32 := congrFun ht 2
  have q3 : win0_2.index t (3 : Fin 4) = 0 := congrFun ht 3
  refine ⟨t, flush0_2 t, (mem_tile2 t i).2 fun a => ?_⟩
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 56 ≤ (i 1).val ∧ (i 1).val < win0_2.index t (1 : Fin 4) * 56 + 56; omega
  | ⟨2, _⟩ => show win0_2.index t (2 : Fin 4) * 32 ≤ (i 2).val ∧ (i 2).val < win0_2.index t (2 : Fin 4) * 32 + 32; omega
  | ⟨3, _⟩ => show win0_2.index t (3 : Fin 4) * 512 ≤ (i 3).val ∧ (i 3).val < win0_2.index t (3 : Fin 4) * 512 + 512; omega

/-- Every index of the second result is in some written-back block. -/
theorem cover_w2 (c : Dev nD) :
    ∀ i : ((cfg0.win 2).arr.view.loc ((c.tc : Thread nD τ))).2.ty.Idx,
      ∃ t : Fin cfg0.N, (cfg0.win 2).flush t = true ∧ i ∈ ((cfg0.win 2).blk t).view.set := by
  intro i
  exact covered2 i

end Cert.KernelIdeal.Cover

end
-- ==== Proof.KI.Value.lean ====
/-
  The kernel's two result arrays after the run, as the transform of the input array.

  At grid point (batch b, row tile h) the first result's block is rows 32·h ‥ 32·h + 31 of batch b, the second's the same
  rows of its 56 channels; the input window is batch b's whole slab. At tile 0 the body reads the slab's rows 0‥31,
  at a later tile the 40 rows from row 32·h − 8; either way what it stores is the transform at the block's own
  coordinates (the two payload modules), so every point writes back a block of ONE whole-array function, and the
  blocks cover the arrays.
-/
import proofs.«119886_j28097676051225_1_alg».proof.Proof.KI.Body
import proofs.«119886_j28097676051225_1_alg».proof.Proof.KI.PayA
import proofs.«119886_j28097676051225_1_alg».proof.Proof.KI.PayB
import proofs.«119886_j28097676051225_1_alg».proof.Proof.KI.Cover
import proofs.«119886_j28097676051225_1_alg».proof.Proof.Spec
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand Cert.Haar
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The input array on core `c`. -/
abbrev xarr (c : Dev nD) : SX.Idx → EReal := m ((c : Thread nD τ).loc main_arg0)

/-! ## The grid's index maps, decided over the 64 points -/

/-- At every point: the input window's block index is (b, 0, 0, 0, 0), the first result's (b, 0, 0, h, 0), the second's
    (b, 0, h, 0), with b < 4 and h < 16; where the second branch is taken h ≥ 1 and the 40 rows it reads start at row
    32·h − 8; where it is not, h = 0. -/
theorem pt_facts : ∀ t : Fin cfg0.N,
    win0_0.index t (0 : Fin 5) = win0_1.index t (0 : Fin 5) ∧ win0_0.index t (1 : Fin 5) = 0 ∧ win0_0.index t (2 : Fin 5) = 0
    ∧ win0_0.index t (3 : Fin 5) = 0 ∧ win0_0.index t (4 : Fin 5) = 0
    ∧ win0_1.index t (1 : Fin 5) = 0 ∧ win0_1.index t (2 : Fin 5) = 0 ∧ win0_1.index t (4 : Fin 5) = 0
    ∧ win0_1.index t (0 : Fin 5) < 4 ∧ win0_1.index t (3 : Fin 5) < 16
    ∧ win0_2.index t (0 : Fin 4) = win0_1.index t (0 : Fin 5) ∧ win0_2.index t (1 : Fin 4) = 0
    ∧ win0_2.index t (2 : Fin 4) = win0_1.index t (3 : Fin 5) ∧ win0_2.index t (3 : Fin 4) = 0
    ∧ (k0_cond2 (grid0.coords t) = 1#1 → 1 ≤ win0_1.index t (3 : Fin 5)
        ∧ k0_off1 (grid0.coords t) (0 : Fin 5) = 0 ∧ k0_off1 (grid0.coords t) (1 : Fin 5) = 0 ∧ k0_off1 (grid0.coords t) (2 : Fin 5) = 0
        ∧ k0_off1 (grid0.coords t) (3 : Fin 5) + 8 = win0_1.index t (3 : Fin 5) * 32 ∧ k0_off1 (grid0.coords t) (4 : Fin 5) = 0)
    ∧ (¬ k0_cond2 (grid0.coords t) = 1#1 → win0_1.index t (3 : Fin 5) = 0) :=
  (by decide +kernel : ∀ t : Fin grid0.N, _)

theorem hz5 : (![0, 0, 0, 0, 0] : Fin 5 → Nat) = fun _ => 0 := funext fun a => by fin_cases a <;> rfl
theorem hz4 : (![0, 0, 0, 0] : Fin 4 → Nat) = fun _ => 0 := funext fun a => by fin_cases a <;> rfl

/-- An index of a block with two unit axes in front, by its three other coordinates. -/
theorem exists_ix5 {a b c : ℕ} (j : (⟨5, ![1, 1, a, b, c]⟩ : Shape).Idx) :
    ∃ (f : Fin a) (r : Fin b) (cc : Fin c), j = ix5 (0 : Fin 1) (0 : Fin 1) f r cc :=
  ⟨j 2, j 3, j 4, funext fun d => match d with
    | ⟨0, _⟩ => Fin.ext (by have h : (j 0).val < 1 := (j 0).isLt; show (j 0).val = 0; omega)
    | ⟨1, _⟩ => Fin.ext (by have h : (j 1).val < 1 := (j 1).isLt; show (j 1).val = 0; omega)
    | ⟨2, _⟩ => rfl
    | ⟨3, _⟩ => rfl
    | ⟨4, _⟩ => rfl⟩
/-- And with one. -/
theorem exists_ix4 {a b c : ℕ} (j : (⟨4, ![1, a, b, c]⟩ : Shape).Idx) :
    ∃ (f : Fin a) (r : Fin b) (cc : Fin c), j = ix4 (0 : Fin 1) f r cc :=
  ⟨j 1, j 2, j 3, funext fun d => match d with
    | ⟨0, _⟩ => Fin.ext (by have h : (j 0).val < 1 := (j 0).isLt; show (j 0).val = 0; omega)
    | ⟨1, _⟩ => rfl
    | ⟨2, _⟩ => rfl
    | ⟨3, _⟩ => rfl⟩

/-! ## What the body loads: rows of the batch's slab -/

/-- The first branch's load: row `r` of it is row `r` of batch b. -/
theorem slabA (c : Dev nD) (t : Fin cfg0.N) (f : Fin 9) (r : Fin 32) (cc : Fin 512) :
    View.ld (iblk m c 0 t) rTop (ix5 (0 : Fin 1) (0 : Fin 1) f r cc)
      = Xof (xarr m c) (win0_1.index t (0 : Fin 5)) f.val r.val cc.val := by
  show V m c main_arg0 (((cfg0.win 0).blk t).view.emb (rTop.idx (ix5 (0 : Fin 1) (0 : Fin 1) f r cc))) = _
  obtain ⟨e0, e1, e2, e3, e4, -⟩ := pt_facts t
  refine Xof_of_val _ _ _ _ _ _ ?_ ?_ ?_ ?_
  · show win0_0.index t (0 : Fin 5) * 1 + 1 * (0 + 1 * 0) = _
    omega
  · show win0_0.index t (2 : Fin 5) * 9 + 1 * (0 + 1 * f.val) = _
    omega
  · show win0_0.index t (3 : Fin 5) * 512 + 1 * (0 + 1 * r.val) = _
    omega
  · show win0_0.index t (4 : Fin 5) * 512 + 1 * (0 + 1 * cc.val) = _
    omega

/-- The second branch's load: row `q` of it is row `(32·h − 8) + q` of batch b. -/
theorem slabB (c : Dev nD) (t : Fin cfg0.N) (h2 : k0_cond2 (grid0.coords t) = 1#1) (f : Fin 9) (q : Fin 40) (cc : Fin 512) :
    View.ld (iblk m c 0 t) (rWin (grid0.coords t) h2) (ix5 (0 : Fin 1) (0 : Fin 1) f q cc)
      = Xof (xarr m c) (win0_1.index t (0 : Fin 5)) f.val (k0_off1 (grid0.coords t) (3 : Fin 5) + q.val) cc.val := by
  show V m c main_arg0 (((cfg0.win 0).blk t).view.emb ((rWin (grid0.coords t) h2).idx (ix5 (0 : Fin 1) (0 : Fin 1) f q cc))) = _
  obtain ⟨e0, e1, e2, e3, e4, -, -, -, -, -, -, -, -, -, hB, -⟩ := pt_facts t
  obtain ⟨-, o0, o1, o2, -, o4⟩ := hB h2
  refine Xof_of_val _ _ _ _ _ _ ?_ ?_ ?_ ?_
  · show win0_0.index t (0 : Fin 5) * 1 + 1 * (k0_off1 (grid0.coords t) (0 : Fin 5) + 1 * 0) = _
    omega
  · show win0_0.index t (2 : Fin 5) * 9 + 1 * (k0_off1 (grid0.coords t) (2 : Fin 5) + 1 * f.val) = _
    omega
  · show win0_0.index t (3 : Fin 5) * 512 + 1 * (k0_off1 (grid0.coords t) (3 : Fin 5) + 1 * q.val) = _
    omega
  · show win0_0.index t (4 : Fin 5) * 512 + 1 * (k0_off1 (grid0.coords t) (4 : Fin 5) + 1 * cc.val) = _
    omega

/-! ## The transform read through a result's block -/

/-- Block (b, h) of the low-low-low band, at the block's local coordinates. -/
theorem blk1_G0 (c : Dev nD) (t : Fin cfg0.N) (f : Fin 8) (r : Fin 32) (cc : Fin 512) :
    ((cfg0.win 1).blk t).view.read (Elt Ideal) (G0 sW (xarr m c)) (ix5 (0 : Fin 1) (0 : Fin 1) f r cc)
      = lll sW (Xof (xarr m c)) (win0_1.index t (0 : Fin 5)) f.val (win0_1.index t (3 : Fin 5) * 32 + r.val) cc.val := by
  show G0 sW (xarr m c) (((cfg0.win 1).blk t).view.emb (ix5 (0 : Fin 1) (0 : Fin 1) f r cc)) = _
  unfold G0
  obtain ⟨-, -, -, -, -, -, e6, e7, -⟩ := pt_facts t
  have h0 : ((((cfg0.win 1).blk t).view.emb (ix5 (0 : Fin 1) (0 : Fin 1) f r cc)) 0).val = win0_1.index t (0 : Fin 5) := by
    show win0_1.index t (0 : Fin 5) * 1 + 1 * 0 = _
    omega
  have h2 : ((((cfg0.win 1).blk t).view.emb (ix5 (0 : Fin 1) (0 : Fin 1) f r cc)) 2).val = f.val := by
    show win0_1.index t (2 : Fin 5) * 8 + 1 * f.val = _
    omega
  have h3 : ((((cfg0.win 1).blk t).view.emb (ix5 (0 : Fin 1) (0 : Fin 1) f r cc)) 3).val = win0_1.index t (3 : Fin 5) * 32 + r.val := by
    show win0_1.index t (3 : Fin 5) * 32 + 1 * r.val = _
    omega
  have h4 : ((((cfg0.win 1).blk t).view.emb (ix5 (0 : Fin 1) (0 : Fin 1) f r cc)) 4).val = cc.val := by
    show win0_1.index t (4 : Fin 5) * 512 + 1 * cc.val = _
    omega
  show lll sW (Xof (xarr m c)) _ _ _ _ = _
  rw [h0, h2, h3, h4]

/-- Block (b, h) of the seven other bands. -/
theorem blk2_G1 (c : Dev nD) (t : Fin cfg0.N) (ch : Fin 56) (r : Fin 32) (cc : Fin 512) :
    ((cfg0.win 2).blk t).view.read (Elt Ideal) (G1 sW (xarr m c)) (ix4 (0 : Fin 1) ch r cc)
      = high sW (Xof (xarr m c)) (win0_1.index t (0 : Fin 5)) ch.val (win0_1.index t (3 : Fin 5) * 32 + r.val) cc.val := by
  show G1 sW (xarr m c) (((cfg0.win 2).blk t).view.emb (ix4 (0 : Fin 1) ch r cc)) = _
  unfold G1
  obtain ⟨-, -, -, -, -, -, -, -, -, -, g0, g1, g2, g3, -⟩ := pt_facts t
  have h0 : ((((cfg0.win 2).blk t).view.emb (ix4 (0 : Fin 1) ch r cc)) 0).val = win0_1.index t (0 : Fin 5) := by
    show win0_2.index t (0 : Fin 4) * 1 + 1 * 0 = _
    omega
  have h1 : ((((cfg0.win 2).blk t).view.emb (ix4 (0 : Fin 1) ch r cc)) 1).val = ch.val := by
    show win0_2.index t (1 : Fin 4) * 56 + 1 * ch.val = _
    omega
  have h2 : ((((cfg0.win 2).blk t).view.emb (ix4 (0 : Fin 1) ch r cc)) 2).val = win0_1.index t (3 : Fin 5) * 32 + r.val := by
    show win0_2.index t (2 : Fin 4) * 32 + 1 * r.val = _
    omega
  have h3 : ((((cfg0.win 2).blk t).view.emb (ix4 (0 : Fin 1) ch r cc)) 3).val = cc.val := by
    show win0_2.index t (3 : Fin 4) * 512 + 1 * cc.val = _
    omega
  show high sW (Xof (xarr m c)) _ _ _ _ = _
  rw [h0, h1, h2, h3]

/-! ## What each point writes back -/

/-- Point `t` writes back block `t` of the low-low-low band of the input. -/
theorem flushed1_eq (c : Dev nD) (t : Fin cfg0.N) :
    (dats m 0 c).flushed 1 t = ((cfg0.win 1).blk t).view.read (Elt Ideal) (G0 sW (xarr m c)) := by
  show (cfg0.win 1).cut (grid0.coords t) ((dats m 0 c).after 1 t) = _
  rw [after0_1]
  unfold out1At
  obtain ⟨-, -, -, -, -, -, -, -, -, -, -, -, -, -, hB, hA⟩ := pt_facts t
  by_cases h2 : k0_cond2 (grid0.coords t) = 1#1
  · rw [dif_pos h2, View.canon_unit_zero hz5]
    obtain ⟨-, -, -, -, o3, -⟩ := hB h2
    funext j
    obtain ⟨f, r, cc, rfl⟩ := exists_ix5 j
    show lllB (grid0.coords t) h2 (iblk m c 0 t) (ix5 (0 : Fin 1) (0 : Fin 1) f r cc) = _
    rw [blk1_G0]
    unfold lllB
    refine (PayB.lll_apply (Xof (xarr m c)) (win0_1.index t (0 : Fin 5)) (k0_off1 (grid0.coords t) (3 : Fin 5)) _
      (fun f q cc => slabB m c t h2 f q cc) f r cc).trans ?_
    rw [show k0_off1 (grid0.coords t) (3 : Fin 5) + 8 + r.val = win0_1.index t (3 : Fin 5) * 32 + r.val by omega]
  · rw [dif_neg h2, View.canon_unit_zero hz5]
    have h0 := hA h2
    funext j
    obtain ⟨f, r, cc, rfl⟩ := exists_ix5 j
    show lllA (iblk m c 0 t) (ix5 (0 : Fin 1) (0 : Fin 1) f r cc) = _
    rw [blk1_G0]
    unfold lllA
    refine (PayA.lll_apply (Xof (xarr m c)) (win0_1.index t (0 : Fin 5)) _ (fun f r cc => slabA m c t f r cc) f r cc).trans ?_
    rw [show win0_1.index t (3 : Fin 5) * 32 + r.val = r.val by omega]

/-- Point `t` writes back block `t` of the seven other bands. -/
theorem flushed2_eq (c : Dev nD) (t : Fin cfg0.N) :
    (dats m 0 c).flushed 2 t = ((cfg0.win 2).blk t).view.read (Elt Ideal) (G1 sW (xarr m c)) := by
  show (cfg0.win 2).cut (grid0.coords t) ((dats m 0 c).after 2 t) = _
  rw [after0_2]
  unfold out2At
  obtain ⟨-, -, -, -, -, -, -, -, -, -, -, -, -, -, hB, hA⟩ := pt_facts t
  by_cases h2 : k0_cond2 (grid0.coords t) = 1#1
  · rw [dif_pos h2, View.canon_unit_zero hz4]
    obtain ⟨-, -, -, -, o3, -⟩ := hB h2
    funext j
    obtain ⟨ch, r, cc, rfl⟩ := exists_ix4 j
    show highB (grid0.coords t) h2 (iblk m c 0 t) (ix4 (0 : Fin 1) ch r cc) = _
    rw [blk2_G1]
    unfold highB
    refine (PayB.high_apply (Xof (xarr m c)) (win0_1.index t (0 : Fin 5)) (k0_off1 (grid0.coords t) (3 : Fin 5)) _
      (fun f q cc => slabB m c t h2 f q cc) ch r cc).trans ?_
    rw [show k0_off1 (grid0.coords t) (3 : Fin 5) + 8 + r.val = win0_1.index t (3 : Fin 5) * 32 + r.val by omega]
  · rw [dif_neg h2, View.canon_unit_zero hz4]
    have h0 := hA h2
    funext j
    obtain ⟨ch, r, cc, rfl⟩ := exists_ix4 j
    show highA (iblk m c 0 t) (ix4 (0 : Fin 1) ch r cc) = _
    rw [blk2_G1]
    unfold highA
    refine (PayA.high_apply (Xof (xarr m c)) (win0_1.index t (0 : Fin 5)) _ (fun f r cc => slabA m c t f r cc) ch r cc).trans ?_
    rw [show win0_1.index t (3 : Fin 5) * 32 + r.val = r.val by omega]

/-! ## The arrays after the run -/

/-- The first result ends as the low-low-low band of the input, -/
theorem final1 (c : Dev nD) : (dats m 0 c).arrAt 1 cfg0.N = G0 sW (xarr m c) :=
  (dats m 0 c).arrAt_eq_of_cover 1 (G0 sW (xarr m c)) (fun t _ => flushed1_eq m c t) (Cover.cover_w1 c)

/-- the second as the seven other bands. -/
theorem final2 (c : Dev nD) : (dats m 0 c).arrAt 2 cfg0.N = G1 sW (xarr m c) :=
  (dats m 0 c).arrAt_eq_of_cover 2 (G1 sW (xarr m c)) (fun t _ => flushed2_eq m c t) (Cover.cover_w2 c)

/-- The run of the idealized kernel's program: it ends with the two results at the transform of the input, and the
    input as it was. -/
theorem run : θ_run defs (onTc (τ := τ) (main (F := Ideal))) ⟨m, fun _ => 0, ρ⟩ fun r => ∀ c : Dev nD,
      r.2.mem ((c : Thread nD τ).loc main_v0_0) = G0 sW (xarr m c)
      ∧ r.2.mem ((c : Thread nD τ).loc main_v0_1) = G1 sW (xarr m c)
      ∧ r.2.mem ((c : Thread nD τ).loc main_arg0) = m ((c : Thread nD τ).loc main_arg0) :=
  (θ_run defs _ _).mono (fun r h c => ⟨((h c).1 1).trans (final1 m c), ((h c).1 2).trans (final2 m c),
      ((h c).1 0).trans (((dats m 0 c).arrAt_in 0 rfl _).trans ((A_eq m c 0).trans (V_main_arg0 m c)))⟩)
    (run_main m ρ)

end Cert.KernelIdeal.HandValue

end
-- ==== Proof.RefRead.lean ====
/-
  The reference program's two results, read at an index: each is the transform of the input as the specification
  spells it. The reference pads by one replicated entry in front (a concatenation of the first row or column with the
  whole array), takes the two shifted slices, and scales their sum and their difference; it writes the scale on the
  right of each product where the specification writes it on the left.

  The plan. (1) For an arbitrary array A, the offset-0 slice of the padded array is A at the previous row (column),
  the first its own predecessor, and the offset-1 slice is A itself. (2) A sum or difference of those two slices,
  times the broadcast scale, is the specification's low or high band of A along that axis, by commutativity of the
  product; the same for the two frame slices of the input. (3) Every stage of the reference is such a form of an
  earlier stage, so the fourteen band stages are the specification's compositions. (4) The second result stacks seven
  of them along the frame axis, channel ch being frame ch % 8 of piece ch / 8, and drops the unit axis.
-/
import proofs.«119886_j28097676051225_1_alg».proof.Proof.ReadP
import proofs.«119886_j28097676051225_1_alg».proof.Proof.Spec
import Idealize.ShloMosaic.Lib.Pipeline.Value
import Idealize.ShloMosaic.Lib.ValueIdx

noncomputable section

namespace Cert.ReferenceIdeal.RefRead

open Cert.ReferenceIdeal Cert.ReferenceIdeal.Gen Cert.ReferenceIdeal.Read Cert.Haar
open Idealize.ShloMosaic Idealize.ShloMosaic.ValueIdx

section Pad
variable {α : Type}

/-- The coordinate before r along an axis of extent 512, the first its own predecessor. -/
abbrev prv (r : Fin 512) : Fin 512 := ⟨r.val - 1, by have := r.isLt; omega⟩

/-- An array padded by one replicated row in front: its first row, then the whole array. -/
def padR (A : S4x1x8x512x512.Idx → α) : S4x1x8x513x512.Idx → α :=
  concatenate S4x1x8x513x512 3
    [⟨S4x1x8x1x512, extractStridedSlice S4x1x8x1x512 ![0, 0, 0, 0, 0] A slices_S4x1x8x512x512_S4x1x8x1x512_0_0_0_0_0⟩,
     ⟨S4x1x8x512x512, A⟩] concatenates_S4x1x8x1x512_S4x1x8x512x512_S4x1x8x513x512_d3

/-- The padded array's rows 0 .. 511: the previous row of the array. -/
def prevR (A : S4x1x8x512x512.Idx → α) : S4x1x8x512x512.Idx → α :=
  extractStridedSlice S4x1x8x512x512 ![0, 0, 0, 0, 0] (padR A) slices_S4x1x8x513x512_S4x1x8x512x512_0_0_0_0_0

/-- The padded array's rows 1 .. 512: the array itself. -/
def curR (A : S4x1x8x512x512.Idx → α) : S4x1x8x512x512.Idx → α :=
  extractStridedSlice S4x1x8x512x512 ![0, 0, 0, 1, 0] (padR A) slices_S4x1x8x513x512_S4x1x8x512x512_0_0_0_1_0

theorem padR_zero (A : S4x1x8x512x512.Idx → α) (b : Fin 4) (z : Fin 1) (f : Fin 8) (q : Fin 513) (c : Fin 512)
    (hq : q.val = 0) : padR A (ix5 b z f q c) = A (ix5 b z f (⟨0, by omega⟩ : Fin 512) c) := by
  unfold padR
  refine (concatenate_pair_apply_left 3 _ _ concatenates_S4x1x8x1x512_S4x1x8x512x512_S4x1x8x513x512_d3
    (ix5 b z f q c) rfl (ix5 b z f (0 : Fin 1) c) (fun a => match a with
      | ⟨0, _⟩ => rfl
      | ⟨1, _⟩ => rfl
      | ⟨2, _⟩ => rfl
      | ⟨3, _⟩ => by show (0 : Nat) = q.val; omega
      | ⟨4, _⟩ => rfl)).trans ?_
  exact extractStridedSlice_apply ![0, 0, 0, 0, 0] A slices_S4x1x8x512x512_S4x1x8x1x512_0_0_0_0_0
    (ix5 b z f (0 : Fin 1) c) (ix5 b z f (⟨0, by omega⟩ : Fin 512) c) (fun a => match a with
      | ⟨0, _⟩ => by show b.val = 0 + b.val; omega
      | ⟨1, _⟩ => by show z.val = 0 + z.val; omega
      | ⟨2, _⟩ => by show f.val = 0 + f.val; omega
      | ⟨3, _⟩ => by show (0 : Nat) = 0 + 0; omega
      | ⟨4, _⟩ => by show c.val = 0 + c.val; omega)

theorem padR_succ (A : S4x1x8x512x512.Idx → α) (b : Fin 4) (z : Fin 1) (f : Fin 8) (q : Fin 513) (r c : Fin 512)
    (hq : r.val + 1 = q.val) : padR A (ix5 b z f q c) = A (ix5 b z f r c) := by
  unfold padR
  exact concatenate_pair_apply_right 3 _ _ concatenates_S4x1x8x1x512_S4x1x8x512x512_S4x1x8x513x512_d3
    (ix5 b z f q c) rfl rfl (ix5 b z f r c) (fun a ha => match a with
      | ⟨0, _⟩ => rfl
      | ⟨1, _⟩ => rfl
      | ⟨2, _⟩ => rfl
      | ⟨3, _⟩ => absurd rfl ha
      | ⟨4, _⟩ => rfl) hq

theorem prevR_apply (A : S4x1x8x512x512.Idx → α) (b : Fin 4) (z : Fin 1) (f : Fin 8) (r c : Fin 512) :
    prevR A (ix5 b z f r c) = A (ix5 b z f (prv r) c) := by
  unfold prevR
  refine (extractStridedSlice_apply ![0, 0, 0, 0, 0] (padR A) slices_S4x1x8x513x512_S4x1x8x512x512_0_0_0_0_0
    (ix5 b z f r c) (ix5 b z f (⟨r.val, by have := r.isLt; omega⟩ : Fin 513) c) (fun a => match a with
      | ⟨0, _⟩ => by show b.val = 0 + b.val; omega
      | ⟨1, _⟩ => by show z.val = 0 + z.val; omega
      | ⟨2, _⟩ => by show f.val = 0 + f.val; omega
      | ⟨3, _⟩ => by show r.val = 0 + r.val; omega
      | ⟨4, _⟩ => by show c.val = 0 + c.val; omega)).trans ?_
  by_cases h0 : r.val = 0
  · rw [padR_zero A b z f _ c h0]
    exact congrArg A (congrArg (fun t => ix5 b z f t c) (Fin.ext (by show 0 = r.val - 1; omega)))
  · exact padR_succ A b z f _ (prv r) c (by show r.val - 1 + 1 = r.val; omega)

theorem curR_apply (A : S4x1x8x512x512.Idx → α) (b : Fin 4) (z : Fin 1) (f : Fin 8) (r c : Fin 512) :
    curR A (ix5 b z f r c) = A (ix5 b z f r c) := by
  unfold curR
  refine (extractStridedSlice_apply ![0, 0, 0, 1, 0] (padR A) slices_S4x1x8x513x512_S4x1x8x512x512_0_0_0_1_0
    (ix5 b z f r c) (ix5 b z f (⟨1 + r.val, by have := r.isLt; omega⟩ : Fin 513) c) (fun a => match a with
      | ⟨0, _⟩ => by show b.val = 0 + b.val; omega
      | ⟨1, _⟩ => by show z.val = 0 + z.val; omega
      | ⟨2, _⟩ => by show f.val = 0 + f.val; omega
      | ⟨3, _⟩ => by show 1 + r.val = 1 + r.val; omega
      | ⟨4, _⟩ => by show c.val = 0 + c.val; omega)).trans ?_
  exact padR_succ A b z f _ r c (by show r.val + 1 = 1 + r.val; omega)

/-- The same along the columns. -/
def padC (A : S4x1x8x512x512.Idx → α) : S4x1x8x512x513.Idx → α :=
  concatenate S4x1x8x512x513 4
    [⟨S4x1x8x512x1, extractStridedSlice S4x1x8x512x1 ![0, 0, 0, 0, 0] A slices_S4x1x8x512x512_S4x1x8x512x1_0_0_0_0_0⟩,
     ⟨S4x1x8x512x512, A⟩] concatenates_S4x1x8x512x1_S4x1x8x512x512_S4x1x8x512x513_d4

def prevC (A : S4x1x8x512x512.Idx → α) : S4x1x8x512x512.Idx → α :=
  extractStridedSlice S4x1x8x512x512 ![0, 0, 0, 0, 0] (padC A) slices_S4x1x8x512x513_S4x1x8x512x512_0_0_0_0_0

def curC (A : S4x1x8x512x512.Idx → α) : S4x1x8x512x512.Idx → α :=
  extractStridedSlice S4x1x8x512x512 ![0, 0, 0, 0, 1] (padC A) slices_S4x1x8x512x513_S4x1x8x512x512_0_0_0_0_1

theorem padC_zero (A : S4x1x8x512x512.Idx → α) (b : Fin 4) (z : Fin 1) (f : Fin 8) (r : Fin 512) (q : Fin 513)
    (hq : q.val = 0) : padC A (ix5 b z f r q) = A (ix5 b z f r (⟨0, by omega⟩ : Fin 512)) := by
  unfold padC
  refine (concatenate_pair_apply_left 4 _ _ concatenates_S4x1x8x512x1_S4x1x8x512x512_S4x1x8x512x513_d4
    (ix5 b z f r q) rfl (ix5 b z f r (0 : Fin 1)) (fun a => match a with
      | ⟨0, _⟩ => rfl
      | ⟨1, _⟩ => rfl
      | ⟨2, _⟩ => rfl
      | ⟨3, _⟩ => rfl
      | ⟨4, _⟩ => by show (0 : Nat) = q.val; omega)).trans ?_
  exact extractStridedSlice_apply ![0, 0, 0, 0, 0] A slices_S4x1x8x512x512_S4x1x8x512x1_0_0_0_0_0
    (ix5 b z f r (0 : Fin 1)) (ix5 b z f r (⟨0, by omega⟩ : Fin 512)) (fun a => match a with
      | ⟨0, _⟩ => by show b.val = 0 + b.val; omega
      | ⟨1, _⟩ => by show z.val = 0 + z.val; omega
      | ⟨2, _⟩ => by show f.val = 0 + f.val; omega
      | ⟨3, _⟩ => by show r.val = 0 + r.val; omega
      | ⟨4, _⟩ => by show (0 : Nat) = 0 + 0; omega)

theorem padC_succ (A : S4x1x8x512x512.Idx → α) (b : Fin 4) (z : Fin 1) (f : Fin 8) (r : Fin 512) (q : Fin 513) (c : Fin 512)
    (hq : c.val + 1 = q.val) : padC A (ix5 b z f r q) = A (ix5 b z f r c) := by
  unfold padC
  exact concatenate_pair_apply_right 4 _ _ concatenates_S4x1x8x512x1_S4x1x8x512x512_S4x1x8x512x513_d4
    (ix5 b z f r q) rfl rfl (ix5 b z f r c) (fun a ha => match a with
      | ⟨0, _⟩ => rfl
      | ⟨1, _⟩ => rfl
      | ⟨2, _⟩ => rfl
      | ⟨3, _⟩ => rfl
      | ⟨4, _⟩ => absurd rfl ha) hq

theorem prevC_apply (A : S4x1x8x512x512.Idx → α) (b : Fin 4) (z : Fin 1) (f : Fin 8) (r c : Fin 512) :
    prevC A (ix5 b z f r c) = A (ix5 b z f r (prv c)) := by
  unfold prevC
  refine (extractStridedSlice_apply ![0, 0, 0, 0, 0] (padC A) slices_S4x1x8x512x513_S4x1x8x512x512_0_0_0_0_0
    (ix5 b z f r c) (ix5 b z f r (⟨c.val, by have := c.isLt; omega⟩ : Fin 513)) (fun a => match a with
      | ⟨0, _⟩ => by show b.val = 0 + b.val; omega
      | ⟨1, _⟩ => by show z.val = 0 + z.val; omega
      | ⟨2, _⟩ => by show f.val = 0 + f.val; omega
      | ⟨3, _⟩ => by show r.val = 0 + r.val; omega
      | ⟨4, _⟩ => by show c.val = 0 + c.val; omega)).trans ?_
  by_cases h0 : c.val = 0
  · rw [padC_zero A b z f r _ h0]
    exact congrArg A (congrArg (fun t => ix5 b z f r t) (Fin.ext (by show 0 = c.val - 1; omega)))
  · exact padC_succ A b z f r _ (prv c) (by show c.val - 1 + 1 = c.val; omega)

theorem curC_apply (A : S4x1x8x512x512.Idx → α) (b : Fin 4) (z : Fin 1) (f : Fin 8) (r c : Fin 512) :
    curC A (ix5 b z f r c) = A (ix5 b z f r c) := by
  unfold curC
  refine (extractStridedSlice_apply ![0, 0, 0, 0, 1] (padC A) slices_S4x1x8x512x513_S4x1x8x512x512_0_0_0_0_1
    (ix5 b z f r c) (ix5 b z f r (⟨1 + c.val, by have := c.isLt; omega⟩ : Fin 513)) (fun a => match a with
      | ⟨0, _⟩ => by show b.val = 0 + b.val; omega
      | ⟨1, _⟩ => by show z.val = 0 + z.val; omega
      | ⟨2, _⟩ => by show f.val = 0 + f.val; omega
      | ⟨3, _⟩ => by show r.val = 0 + r.val; omega
      | ⟨4, _⟩ => by show 1 + c.val = 1 + c.val; omega)).trans ?_
  exact padC_succ A b z f r _ c (by show c.val + 1 = 1 + c.val; omega)

end Pad

section Bands

/-- The scale, as the array the reference broadcasts it to. -/
def sArr : S4x1x8x512x512.Idx → EReal :=
  broadcastInDim S4x1x8x512x512 ![] bcast_S_S4x1x8x512x512 (constant (F := Ideal) S_ .f32 0x3EB504F3#32)

theorem sArr_apply (i : S4x1x8x512x512.Idx) : sArr i = sW :=
  (broadcastInDim_apply _ bcast_S_S4x1x8x512x512 _ i (fun a => a.elim0) (fun a => a.elim0)).trans rfl

/-- Frames 0 .. 7 of the nine. -/
def frame0 (x : S4x1x9x512x512.Idx → EReal) : S4x1x8x512x512.Idx → EReal :=
  extractStridedSlice S4x1x8x512x512 ![0, 0, 0, 0, 0] x slices_S4x1x9x512x512_S4x1x8x512x512_0_0_0_0_0

/-- Frames 1 .. 8 of the nine. -/
def frame1 (x : S4x1x9x512x512.Idx → EReal) : S4x1x8x512x512.Idx → EReal :=
  extractStridedSlice S4x1x8x512x512 ![0, 0, 1, 0, 0] x slices_S4x1x9x512x512_S4x1x8x512x512_0_0_1_0_0

theorem frame0_apply (x : S4x1x9x512x512.Idx → EReal) (b : Fin 4) (f : Fin 8) (r c : Fin 512) :
    frame0 x (ix5 b (0 : Fin 1) f r c) = Xof x b.val f.val r.val c.val := by
  unfold frame0
  refine (extractStridedSlice_apply ![0, 0, 0, 0, 0] x slices_S4x1x9x512x512_S4x1x8x512x512_0_0_0_0_0
    (ix5 b (0 : Fin 1) f r c) (ix5 b (0 : Fin 1) (⟨f.val, by have := f.isLt; omega⟩ : Fin 9) r c) (fun a => match a with
      | ⟨0, _⟩ => by show b.val = 0 + b.val; omega
      | ⟨1, _⟩ => by show (0 : Nat) = 0 + 0; omega
      | ⟨2, _⟩ => by show f.val = 0 + f.val; omega
      | ⟨3, _⟩ => by show r.val = 0 + r.val; omega
      | ⟨4, _⟩ => by show c.val = 0 + c.val; omega)).trans ?_
  exact (Xof_apply x b (⟨f.val, by have := f.isLt; omega⟩ : Fin 9) r c).symm

theorem frame1_apply (x : S4x1x9x512x512.Idx → EReal) (b : Fin 4) (f : Fin 8) (r c : Fin 512) :
    frame1 x (ix5 b (0 : Fin 1) f r c) = Xof x b.val (f.val + 1) r.val c.val := by
  unfold frame1
  refine (extractStridedSlice_apply ![0, 0, 1, 0, 0] x slices_S4x1x9x512x512_S4x1x8x512x512_0_0_1_0_0
    (ix5 b (0 : Fin 1) f r c) (ix5 b (0 : Fin 1) (⟨f.val + 1, by have := f.isLt; omega⟩ : Fin 9) r c) (fun a => match a with
      | ⟨0, _⟩ => by show b.val = 0 + b.val; omega
      | ⟨1, _⟩ => by show (0 : Nat) = 0 + 0; omega
      | ⟨2, _⟩ => by show f.val + 1 = 1 + f.val; omega
      | ⟨3, _⟩ => by show r.val = 0 + r.val; omega
      | ⟨4, _⟩ => by show c.val = 0 + c.val; omega)).trans ?_
  exact (Xof_apply x b (⟨f.val + 1, by have := f.isLt; omega⟩ : Fin 9) r c).symm

/-- A frame plus the next, scaled on the right, is the low band along the frames. -/
theorem loF_of (x : S4x1x9x512x512.Idx → EReal) (b : Fin 4) (z : Fin 1) (f : Fin 8) (r c : Fin 512) :
    mulf (F := Ideal) (φ := .f32) (addf (F := Ideal) (φ := .f32) (frame0 x) (frame1 x)) sArr (ix5 b z f r c)
      = loF sW (Xof x) b.val f.val r.val c.val := by
  have hz : z = 0 := Fin.fin_one_eq_zero z
  subst hz
  show (frame0 x (ix5 b 0 f r c) + frame1 x (ix5 b 0 f r c)) * sArr (ix5 b 0 f r c)
    = sW * (Xof x b.val f.val r.val c.val + Xof x b.val (f.val + 1) r.val c.val)
  rw [frame0_apply, frame1_apply, sArr_apply]
  exact mul_comm _ _

/-- The next frame minus this one, scaled on the right, is the high band along the frames. -/
theorem hiF_of (x : S4x1x9x512x512.Idx → EReal) (b : Fin 4) (z : Fin 1) (f : Fin 8) (r c : Fin 512) :
    mulf (F := Ideal) (φ := .f32) (subf (F := Ideal) (φ := .f32) (frame1 x) (frame0 x)) sArr (ix5 b z f r c)
      = hiF sW (Xof x) b.val f.val r.val c.val := by
  have hz : z = 0 := Fin.fin_one_eq_zero z
  subst hz
  show (frame1 x (ix5 b 0 f r c) - frame0 x (ix5 b 0 f r c)) * sArr (ix5 b 0 f r c)
    = sW * (Xof x b.val (f.val + 1) r.val c.val - Xof x b.val f.val r.val c.val)
  rw [frame0_apply, frame1_apply, sArr_apply]
  exact mul_comm _ _

variable (V : S4x1x8x512x512.Idx → EReal) (A : Arr)
  (hV : ∀ (b : Fin 4) (z : Fin 1) (f : Fin 8) (r c : Fin 512), V (ix5 b z f r c) = A b.val f.val r.val c.val)
include hV

/-- Previous row plus this row, scaled on the right: the low band along the rows. -/
theorem loR_of (b : Fin 4) (z : Fin 1) (f : Fin 8) (r c : Fin 512) :
    mulf (F := Ideal) (φ := .f32) (addf (F := Ideal) (φ := .f32) (prevR V) (curR V)) sArr (ix5 b z f r c)
      = loR sW A b.val f.val r.val c.val := by
  show (prevR V (ix5 b z f r c) + curR V (ix5 b z f r c)) * sArr (ix5 b z f r c)
    = sW * (A b.val f.val (r.val - 1) c.val + A b.val f.val r.val c.val)
  rw [prevR_apply, curR_apply, sArr_apply, hV, hV]
  exact mul_comm _ _

/-- This row minus the previous one, scaled on the right: the high band along the rows. -/
theorem hiR_of (b : Fin 4) (z : Fin 1) (f : Fin 8) (r c : Fin 512) :
    mulf (F := Ideal) (φ := .f32) (subf (F := Ideal) (φ := .f32) (curR V) (prevR V)) sArr (ix5 b z f r c)
      = hiR sW A b.val f.val r.val c.val := by
  show (curR V (ix5 b z f r c) - prevR V (ix5 b z f r c)) * sArr (ix5 b z f r c)
    = sW * (A b.val f.val r.val c.val - A b.val f.val (r.val - 1) c.val)
  rw [prevR_apply, curR_apply, sArr_apply, hV, hV]
  exact mul_comm _ _

/-- Previous column plus this column, scaled on the right: the low band along the columns. -/
theorem loC_of (b : Fin 4) (z : Fin 1) (f : Fin 8) (r c : Fin 512) :
    mulf (F := Ideal) (φ := .f32) (addf (F := Ideal) (φ := .f32) (prevC V) (curC V)) sArr (ix5 b z f r c)
      = loC sW A b.val f.val r.val c.val := by
  show (prevC V (ix5 b z f r c) + curC V (ix5 b z f r c)) * sArr (ix5 b z f r c)
    = sW * (A b.val f.val r.val (c.val - 1) + A b.val f.val r.val c.val)
  rw [prevC_apply, curC_apply, sArr_apply, hV, hV]
  exact mul_comm _ _

/-- This column minus the previous one, scaled on the right: the high band along the columns. -/
theorem hiC_of (b : Fin 4) (z : Fin 1) (f : Fin 8) (r c : Fin 512) :
    mulf (F := Ideal) (φ := .f32) (subf (F := Ideal) (φ := .f32) (curC V) (prevC V)) sArr (ix5 b z f r c)
      = hiC sW A b.val f.val r.val c.val := by
  show (curC V (ix5 b z f r c) - prevC V (ix5 b z f r c)) * sArr (ix5 b z f r c)
    = sW * (A b.val f.val r.val c.val - A b.val f.val r.val (c.val - 1))
  rw [prevC_apply, curC_apply, sArr_apply, hV, hV]
  exact mul_comm _ _

end Bands

section Stack
variable {α : Type}

/-- Dropping the unit axis reads the five-axis array at the same coordinates, 0 on the unit axis. -/
theorem drop1_apply (Y : S4x1x56x512x512.Idx → α) (b : Fin 4) (ch : Fin 56) (r c : Fin 512) :
    shapeCast S4x56x512x512 Y shapeCasts_S4x1x56x512x512_S4x56x512x512 (ix4 b ch r c) = Y (ix5 b (0 : Fin 1) ch r c) := by
  refine shapeCast_apply Y shapeCasts_S4x1x56x512x512_S4x56x512x512 (ix4 b ch r c) (ix5 b (0 : Fin 1) ch r c) ?_
  rewrite [Shape.rowMajor_val_five, Shape.rowMajor_val_four]
  show (((b.val * 1 + 0) * 56 + ch.val) * 512 + r.val) * 512 + c.val = ((b.val * 56 + ch.val) * 512 + r.val) * 512 + c.val
  omega

/-- Pieces of eight frames each laid along the frame axis: channel ch is frame ch % 8 of piece ch / 8. -/
theorem cat_apply (xs : List ((s : Shape) × (s.Idx → α)))
    (hc : Shape.Concatenates (xs.map (·.1)) S4x1x56x512x512 2) (k : Nat) (hk : k < xs.length)
    (P : S4x1x8x512x512.Idx → α) (hxk : xs[k] = ⟨S4x1x8x512x512, P⟩)
    (hpre : (((xs.take k).map (·.1)).map fun s =>
      if h : s.rank = S4x1x56x512x512.rank then s.size ((2 : Fin S4x1x56x512x512.rank).cast h.symm) else 0).sum = 8 * k)
    (b : Fin 4) (z : Fin 1) (ch : Fin 56) (r c : Fin 512) (hch : ch.val / 8 = k) :
    concatenate S4x1x56x512x512 2 xs hc (ix5 b z ch r c)
      = P (ix5 b z (⟨ch.val % 8, Nat.mod_lt _ (by omega)⟩ : Fin 8) r c) :=
  concatenate_apply_piece 2 xs hc (ix5 b z ch r c) k hk S4x1x8x512x512 P hxk rfl (8 * k) hpre
    (ix5 b z (⟨ch.val % 8, Nat.mod_lt _ (by omega)⟩ : Fin 8) r c)
    (fun a ha => match a with
      | ⟨0, _⟩ => rfl
      | ⟨1, _⟩ => rfl
      | ⟨2, _⟩ => absurd rfl ha
      | ⟨3, _⟩ => rfl
      | ⟨4, _⟩ => rfl)
    (by show 8 * k + ch.val % 8 = ch.val; omega)

end Stack

/-- Seven arrays that are the seven bands, stacked along the frame axis and the unit axis dropped, are the
    specification's second result. -/
theorem high_of (X : Arr) (P0 P1 P2 P3 P4 P5 P6 : S4x1x8x512x512.Idx → EReal)
    (h0 : ∀ (b : Fin 4) (z : Fin 1) (f : Fin 8) (r c : Fin 512), P0 (ix5 b z f r c) = band sW X 0 b.val f.val r.val c.val)
    (h1 : ∀ (b : Fin 4) (z : Fin 1) (f : Fin 8) (r c : Fin 512), P1 (ix5 b z f r c) = band sW X 1 b.val f.val r.val c.val)
    (h2 : ∀ (b : Fin 4) (z : Fin 1) (f : Fin 8) (r c : Fin 512), P2 (ix5 b z f r c) = band sW X 2 b.val f.val r.val c.val)
    (h3 : ∀ (b : Fin 4) (z : Fin 1) (f : Fin 8) (r c : Fin 512), P3 (ix5 b z f r c) = band sW X 3 b.val f.val r.val c.val)
    (h4 : ∀ (b : Fin 4) (z : Fin 1) (f : Fin 8) (r c : Fin 512), P4 (ix5 b z f r c) = band sW X 4 b.val f.val r.val c.val)
    (h5 : ∀ (b : Fin 4) (z : Fin 1) (f : Fin 8) (r c : Fin 512), P5 (ix5 b z f r c) = band sW X 5 b.val f.val r.val c.val)
    (h6 : ∀ (b : Fin 4) (z : Fin 1) (f : Fin 8) (r c : Fin 512), P6 (ix5 b z f r c) = band sW X 6 b.val f.val r.val c.val)
    (b : Fin 4) (ch : Fin 56) (r c : Fin 512) :
    shapeCast S4x56x512x512
      (concatenate S4x1x56x512x512 2
        [⟨S4x1x8x512x512, P0⟩, ⟨S4x1x8x512x512, P1⟩, ⟨S4x1x8x512x512, P2⟩, ⟨S4x1x8x512x512, P3⟩,
         ⟨S4x1x8x512x512, P4⟩, ⟨S4x1x8x512x512, P5⟩, ⟨S4x1x8x512x512, P6⟩]
        concatenates_S4x1x8x512x512_S4x1x8x512x512_S4x1x8x512x512_S4x1x8x512x512_S4x1x8x512x512_S4x1x8x512x512_S4x1x8x512x512_S4x1x56x512x512_d2)
      shapeCasts_S4x1x56x512x512_S4x56x512x512 (ix4 b ch r c)
      = high sW X b.val ch.val r.val c.val := by
  rw [drop1_apply]
  have hlt : ch.val < 56 := ch.isLt
  show _ = band sW X (ch.val / 8) b.val (ch.val % 8) r.val c.val
  obtain h | h | h | h | h | h | h : ch.val / 8 = 0 ∨ ch.val / 8 = 1 ∨ ch.val / 8 = 2 ∨ ch.val / 8 = 3
      ∨ ch.val / 8 = 4 ∨ ch.val / 8 = 5 ∨ ch.val / 8 = 6 := by omega
  · rw [h]; exact (cat_apply _ _ 0 (by show (0 : Nat) < 7; omega) P0 rfl rfl b 0 ch r c h).trans (h0 b 0 _ r c)
  · rw [h]; exact (cat_apply _ _ 1 (by show (1 : Nat) < 7; omega) P1 rfl rfl b 0 ch r c h).trans (h1 b 0 _ r c)
  · rw [h]; exact (cat_apply _ _ 2 (by show (2 : Nat) < 7; omega) P2 rfl rfl b 0 ch r c h).trans (h2 b 0 _ r c)
  · rw [h]; exact (cat_apply _ _ 3 (by show (3 : Nat) < 7; omega) P3 rfl rfl b 0 ch r c h).trans (h3 b 0 _ r c)
  · rw [h]; exact (cat_apply _ _ 4 (by show (4 : Nat) < 7; omega) P4 rfl rfl b 0 ch r c h).trans (h4 b 0 _ r c)
  · rw [h]; exact (cat_apply _ _ 5 (by show (5 : Nat) < 7; omega) P5 rfl rfl b 0 ch r c h).trans (h5 b 0 _ r c)
  · rw [h]; exact (cat_apply _ _ 6 (by show (6 : Nat) < 7; omega) P6 rfl rfl b 0 ch r c h).trans (h6 b 0 _ r c)

section Stages
variable (x : (⟨S4x1x9x512x512, .f32⟩ : BufTy).Contents (Elt Ideal))

/-! The reference's stages in the specification's words. Each stage is, by unfolding its definition, one of the forms
    above: a sum or a difference of the two frame slices, or of the two shifted slices of a padded earlier stage,
    times the broadcast scale. -/

theorem v4_at (b : Fin 4) (z : Fin 1) (f : Fin 8) (r c : Fin 512) :
    val_main_v4 (F := Ideal) x (ix5 b z f r c) = loF sW (Xof x) b.val f.val r.val c.val := loF_of x b z f r c

theorem v7_at (b : Fin 4) (z : Fin 1) (f : Fin 8) (r c : Fin 512) :
    val_main_v7 (F := Ideal) x (ix5 b z f r c) = hiF sW (Xof x) b.val f.val r.val c.val := hiF_of x b z f r c

theorem v14_at (b : Fin 4) (z : Fin 1) (f : Fin 8) (r c : Fin 512) :
    val_main_v14 (F := Ideal) x (ix5 b z f r c) = loR sW (loF sW (Xof x)) b.val f.val r.val c.val :=
  loR_of (val_main_v4 (F := Ideal) x) _ (v4_at x) b z f r c

theorem v17_at (b : Fin 4) (z : Fin 1) (f : Fin 8) (r c : Fin 512) :
    val_main_v17 (F := Ideal) x (ix5 b z f r c) = hiR sW (loF sW (Xof x)) b.val f.val r.val c.val :=
  hiR_of (val_main_v4 (F := Ideal) x) _ (v4_at x) b z f r c

theorem v24_at (b : Fin 4) (z : Fin 1) (f : Fin 8) (r c : Fin 512) :
    val_main_v24 (F := Ideal) x (ix5 b z f r c) = loR sW (hiF sW (Xof x)) b.val f.val r.val c.val :=
  loR_of (val_main_v7 (F := Ideal) x) _ (v7_at x) b z f r c

theorem v27_at (b : Fin 4) (z : Fin 1) (f : Fin 8) (r c : Fin 512) :
    val_main_v27 (F := Ideal) x (ix5 b z f r c) = hiR sW (hiF sW (Xof x)) b.val f.val r.val c.val :=
  hiR_of (val_main_v7 (F := Ideal) x) _ (v7_at x) b z f r c

theorem v34_at (b : Fin 4) (z : Fin 1) (f : Fin 8) (r c : Fin 512) :
    val_main_v34 (F := Ideal) x (ix5 b z f r c) = loC sW (loR sW (loF sW (Xof x))) b.val f.val r.val c.val :=
  loC_of (val_main_v14 (F := Ideal) x) _ (v14_at x) b z f r c

theorem v37_at (b : Fin 4) (z : Fin 1) (f : Fin 8) (r c : Fin 512) :
    val_main_v37 (F := Ideal) x (ix5 b z f r c) = hiC sW (loR sW (loF sW (Xof x))) b.val f.val r.val c.val :=
  hiC_of (val_main_v14 (F := Ideal) x) _ (v14_at x) b z f r c

theorem v44_at (b : Fin 4) (z : Fin 1) (f : Fin 8) (r c : Fin 512) :
    val_main_v44 (F := Ideal) x (ix5 b z f r c) = loC sW (hiR sW (loF sW (Xof x))) b.val f.val r.val c.val :=
  loC_of (val_main_v17 (F := Ideal) x) _ (v17_at x) b z f r c

theorem v47_at (b : Fin 4) (z : Fin 1) (f : Fin 8) (r c : Fin 512) :
    val_main_v47 (F := Ideal) x (ix5 b z f r c) = hiC sW (hiR sW (loF sW (Xof x))) b.val f.val r.val c.val :=
  hiC_of (val_main_v17 (F := Ideal) x) _ (v17_at x) b z f r c

theorem v54_at (b : Fin 4) (z : Fin 1) (f : Fin 8) (r c : Fin 512) :
    val_main_v54 (F := Ideal) x (ix5 b z f r c) = loC sW (loR sW (hiF sW (Xof x))) b.val f.val r.val c.val :=
  loC_of (val_main_v24 (F := Ideal) x) _ (v24_at x) b z f r c

theorem v57_at (b : Fin 4) (z : Fin 1) (f : Fin 8) (r c : Fin 512) :
    val_main_v57 (F := Ideal) x (ix5 b z f r c) = hiC sW (loR sW (hiF sW (Xof x))) b.val f.val r.val c.val :=
  hiC_of (val_main_v24 (F := Ideal) x) _ (v24_at x) b z f r c

theorem v64_at (b : Fin 4) (z : Fin 1) (f : Fin 8) (r c : Fin 512) :
    val_main_v64 (F := Ideal) x (ix5 b z f r c) = loC sW (hiR sW (hiF sW (Xof x))) b.val f.val r.val c.val :=
  loC_of (val_main_v27 (F := Ideal) x) _ (v27_at x) b z f r c

theorem v67_at (b : Fin 4) (z : Fin 1) (f : Fin 8) (r c : Fin 512) :
    val_main_v67 (F := Ideal) x (ix5 b z f r c) = hiC sW (hiR sW (hiF sW (Xof x))) b.val f.val r.val c.val :=
  hiC_of (val_main_v27 (F := Ideal) x) _ (v27_at x) b z f r c

end Stages

/-- The first result (the stage `main_v34`) is the low-low-low band of the input. -/
theorem lll_eq (x : (⟨S4x1x9x512x512, .f32⟩ : BufTy).Contents (Elt Ideal)) :
    val_main_v34 (F := Ideal) x = G0 sW x := by
  funext j
  calc val_main_v34 (F := Ideal) x j
      = val_main_v34 (F := Ideal) x (ix5 (j 0) (j 1) (j 2) (j 3) (j 4)) := congrArg _ (eq_ix5 j)
    _ = G0 sW x j := v34_at x (j 0) (j 1) (j 2) (j 3) (j 4)

/-- The second result (the stage `main_v69`) is the seven other bands along the channel axis. -/
theorem high_eq (x : (⟨S4x1x9x512x512, .f32⟩ : BufTy).Contents (Elt Ideal)) :
    val_main_v69 (F := Ideal) x = G1 sW x := by
  funext j
  calc val_main_v69 (F := Ideal) x j
      = val_main_v69 (F := Ideal) x (ix4 (j 0) (j 1) (j 2) (j 3)) := congrArg _ (eq_ix4 j)
    _ = G1 sW x j :=
      high_of (Xof x) _ _ _ _ _ _ _ (v37_at x) (v44_at x) (v47_at x) (v54_at x) (v57_at x) (v64_at x) (v67_at x)
        (j 0) (j 1) (j 2) (j 3)

end Cert.ReferenceIdeal.RefRead

end
-- ==== Proof.lean ====
/-
  The certificate of the wavelet kernel against its jnp reference: the separable three-dimensional Haar transform of
  x : f32[4, 1, 9, 512, 512] (low and high pairs along the frames, then along the rows and the columns with the first
  entry replicated in front), computed by one pallas_call on a 4 × 16 grid of (batch, 32-row tile), against the
  reference's host program of pads, slices, sums and differences.

  Over the extended reals the two programs compute one function of the input, index by index: both scale by the same
  constant, the kernel writing s·(a + b) and s·(a − b) where the reference writes (a + b)·s and (a − b)·s, with the same
  operands in the same order; the kernel reads, per tile, the rows the tile needs (rows 0‥31 at the first tile, the 40
  rows from 8 before the tile at a later one), and its tiles cover the results. So the only law used is that
  multiplication of extended reals is commutative, and the precondition (finite inputs) is never opened.

  The three frames: the kernel's two programs (as printed, and idealized) by running the body symbolically at every
  grid point; the reference's by its run. The idealization rewrote nothing, so its conjunct is trivial.
-/
import proofs.«119886_j28097676051225_1_alg».proof.Defs
import proofs.«119886_j28097676051225_1_alg».proof.Proof.Gen.Kernel
import proofs.«119886_j28097676051225_1_alg».proof.Proof.Gen.KernelIdeal
import proofs.«119886_j28097676051225_1_alg».proof.Proof.Gen.ReferenceIdeal
import proofs.«119886_j28097676051225_1_alg».proof.Proof.ReadP
import proofs.«119886_j28097676051225_1_alg».proof.Proof.RunP
import proofs.«119886_j28097676051225_1_alg».proof.Proof.Gen.Pre_finite_inputs
import proofs.«119886_j28097676051225_1_alg».proof.Proof.K.Body
import proofs.«119886_j28097676051225_1_alg».proof.Proof.KI.Body
import proofs.«119886_j28097676051225_1_alg».proof.Proof.KI.Value
import proofs.«119886_j28097676051225_1_alg».proof.Proof.RefRead
import proofs.«119886_j28097676051225_1_alg».proof.Proof.Spec

noncomputable section

namespace Cert.Proof

open Idealize.ShloMosaic Idealize.SL.Sem Cert.Haar

/-- The kernel as printed runs to the end and leaves its input alone. -/
theorem frame_p : Cert.frame_Kernel (hKernel := Cert.Kernel.Gen.facts) (hPre_finite_inputs := Cert.Pre_finite_inputs.Gen.facts) :=
  fun m ρ _ => Cert.Kernel.Hand.frame m ρ

/-- So does its idealization. -/
theorem frame_pi : Cert.frame_KernelIdeal (hKernelIdeal := Cert.KernelIdeal.Gen.facts) (hPre_finite_inputs := Cert.Pre_finite_inputs.Gen.facts) :=
  fun m ρ _ => Cert.KernelIdeal.Hand.frame m ρ

/-- And the reference: its run, the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- From memories that agree on the input both programs end with the two results at the transform of the input:
    the kernel's arrays by its run read block by block, the reference's stages read operation by operation. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => G0 sW (Cert.KernelIdeal.HandValue.xarr m c), fun c => G1 sW (Cert.KernelIdeal.HandValue.xarr m c),
    Cert.KernelIdeal.HandValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.RefRead.lll_eq, hagree c]
  · rw [(h c).2.1, Cert.ReferenceIdeal.RefRead.high_eq, hagree c]

theorem claim : Cert.Claim := ⟨Cert.Kernel.Gen.facts, Cert.KernelIdeal.Gen.facts, Cert.ReferenceIdeal.Gen.facts,
  Cert.Pre_finite_inputs.Gen.facts, frame_p, frame_pi, frame_ri, trivial, algebraic⟩

end Cert.Proof

end
